-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32768 : Shape := ⟨2, ![2048, 32768]⟩
abbrev S32x256 : Shape := ⟨2, ![32, 256]⟩
abbrev S_ : Shape := ⟨0, ![]⟩

class Facts : Prop where
  bcast_S_S2048x32768 : S_.BroadcastsInDim S2048x32768 (![] : Fin 0 → Fin S2048x32768.rank)
  reducesTo_S2048x32768_S_d0_1 : S2048x32768.ReducesTo [0, 1] S_
  h_S_ : 0 < S_.numel
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  main_v18

def fn {F : FTy → Type} [FloatOps F] (main_arg0 : FVec F S2048x32768 .f32) (main_arg1 : FVec F S32x256 .f32) (main_arg2 : FVec F S32x256 .f32) (main_arg3 : FVec F S32x256 .f32) : IVec S_ 1 :=
  let main_v0 : FVec F S2048x32768 .f32 := Host.absf main_arg0
  let main_cst : FVec F S_ .f32 := constant S_ .f32 0x7F800000#32
  let main_v1 : FVec F S2048x32768 .f32 := broadcastInDim S2048x32768 ![] bcast_S_S2048x32768 main_cst
  let main_v2 : IVec S2048x32768 1 := cmpf .olt main_v0 main_v1
  let main_c : IVec S_ 1 := constantI S_ 1 1#1
  let main_v3 : IVec S_ 1 := (fun x v => Host.reduce IntOp.andi x v reducesTo_S2048x32768_S_d0_1 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32x256 .f32 := Host.absf main_arg2
  let main_cst_2 : FVec F S_ .f32 := constant S_ .f32 0x7F800000#32
  let main_v10 : FVec F S32x256 .f32 := broadcastInDim S32x256 ![] bcast_S_S32x256 main_cst_2
  let main_v11 : IVec S32x256 1 := cmpf .olt main_v9 main_v10
  let main_c_3 : IVec S_ 1 := constantI S_ 1 1#1
  let main_v12 : IVec S_ 1 := (fun x v => Host.reduce IntOp.andi x v reducesTo_S32x256_S_d0_1 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_v13 main_v16
-- ==== Kernel.lean ====
abbrev S2048x32768 : Shape := ⟨2, ![2048, 32768]⟩
abbrev S32x256 : Shape := ⟨2, ![32, 256]⟩
abbrev S32768x256 : Shape := ⟨2, ![32768, 256]⟩
abbrev S8x256 : Shape := ⟨2, ![8, 256]⟩
abbrev S8192x256 : Shape := ⟨2, ![8192, 256]⟩
abbrev S32x1x256 : Shape := ⟨3, ![32, 1, 256]⟩
abbrev S1x32x256 : Shape := ⟨3, ![1, 32, 256]⟩
abbrev S32x32x256 : Shape := ⟨3, ![32, 32, 256]⟩
abbrev S1024x256 : Shape := ⟨2, ![1024, 256]⟩
abbrev S8x1x256 : Shape := ⟨3, ![8, 1, 256]⟩
abbrev S1x1024x256 : Shape := ⟨3, ![1, 1024, 256]⟩
abbrev S8x1024x256 : Shape := ⟨3, ![8, 1024, 256]⟩
abbrev S2048x256 : Shape := ⟨2, ![2048, 256]⟩
abbrev S1024x2048 : Shape := ⟨2, ![1024, 2048]⟩

abbrev nBuf : Space → Nat
  | .hbm => 6
  | .vmem => 13
  | .smem => 0
  | _ => 0

abbrev bufTy : (tb : Table) → Fin (tcTables nBuf tb) → BufTy
  | .hbm, ⟨0, _⟩ => ⟨S2048x32768, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S32768x256, .bf16⟩
  | .hbm, ⟨5, _⟩ => ⟨S2048x256, .f32⟩
  | .local _ .vmem, ⟨0, _⟩ => ⟨S32x256, .f32⟩
  | .local _ .vmem, ⟨1, _⟩ => ⟨S32x256, .f32⟩
  | .local _ .vmem, ⟨2, _⟩ => ⟨S8x256, .f32⟩
  | .local _ .vmem, ⟨3, _⟩ => ⟨S8x256, .f32⟩
  | .local _ .vmem, ⟨4, _⟩ => ⟨S8192x256, .bf16⟩
  | .local _ .vmem, ⟨5, _⟩ => ⟨S8192x256, .bf16⟩
  | .local _ .vmem, ⟨6, _⟩ => ⟨S1024x2048, .f32⟩
  | .local _ .vmem, ⟨7, _⟩ => ⟨S1024x2048, .f32⟩
  | .local _ .vmem, ⟨8, _⟩ => ⟨S2048x256, .bf16⟩
  | .local _ .vmem, ⟨9, _⟩ => ⟨S2048x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S2048x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S32x256_S32x256_0_0 : ∀ a, (![0, 0] : Fin 2 → Nat) a + S32x256.size a ≤ S32x256.size a
  h_S32x256 : 0 < S32x256.numel
  inb_S8x256_S8x256_0_0 : ∀ a, (![0, 0] : Fin 2 → Nat) a + S8x256.size a ≤ S8x256.size a
  h_S8x256 : 0 < S8x256.numel
  shapeCasts_S32x256_S32x1x256 : S32x256.ShapeCasts S32x1x256
  shapeCasts_S32x256_S1x32x256 : S32x256.ShapeCasts S1x32x256
  broadcasts_S32x1x256_S32x32x256 : S32x1x256.Broadcasts S32x32x256
  broadcasts_S1x32x256_S32x32x256 : S1x32x256.Broadcasts S32x32x256
  shapeCasts_S32x32x256_S1024x256 : S32x32x256.ShapeCasts S1024x256
  shapeCasts_S8x256_S8x1x256 : S8x256.ShapeCasts S8x1x256
  shapeCasts_S1024x256_S1x1024x256 : S1024x256.ShapeCasts S1x1024x256
  broadcasts_S8x1x256_S8x1024x256 : S8x1x256.Broadcasts S8x1024x256
  broadcasts_S1x1024x256_S8x1024x256 : S1x1024x256.Broadcasts S8x1024x256
  shapeCasts_S8x1024x256_S8192x256 : S8x1024x256.ShapeCasts S8192x256
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  packedbf16_S8192x256_S8192x256_0_0 : (Rect.unit (s := S8192x256) ![0, 0] S8192x256.size inb_S8192x256_S8192x256_0_0).PackedRows (EltTy.packing .bf16)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  dot_S1024x2048_S2048x256_S1024x256_1_0_0_1_n_n_wf : DotDims.WF S1024x2048 S2048x256 S1024x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S32x256.size a
  hwx0_0 : ∀ i : grid0.Coords, EltTy.bits .f32 = 32 ∨ (Rect.block (s := S32x256) S32x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .f32 = 32 ∨ (Rect.block (s := S32x256) S32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256.size a ≤ S32x256.size a
  hwx0_2 : ∀ i : grid0.Coords, EltTy.bits .f32 = 32 ∨ (Rect.block (s := S32x256) S8x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S32768x256.size a
  hwx0_3 : ∀ i : grid0.Coords, EltTy.bits .bf16 = 32 ∨ (Rect.block (s := S32768x256) S8192x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S2048x32768.size a
  hwx1_0 : ∀ i : grid1.Coords, EltTy.bits .f32 = 32 ∨ (Rect.block (s := S2048x32768) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S32768x256.size a
  hwx1_1 : ∀ i : grid1.Coords, EltTy.bits .bf16 = 32 ∨ (Rect.block (s := S32768x256) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S2048x256.size a
  hwx1_2 : ∀ i : grid1.Coords, EltTy.bits .f32 = 32 ∨ (Rect.block (s := S2048x256) S1024x256.size (cc1_transform_2 i) (hinb1_2 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf

abbrev win0_0 : Pipeline.Window sig grid0 :=
  Pipeline.Window.ofSpec (Memref.whole main_arg1) S32x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2048x32768 : Shape := ⟨2, ![2048, 32768]⟩
abbrev S32x256 : Shape := ⟨2, ![32, 256]⟩
abbrev S_ : Shape := ⟨0, ![]⟩
abbrev S1x256 : Shape := ⟨2, ![1, 256]⟩
abbrev S1x1x256 : Shape := ⟨3, ![1, 1, 256]⟩
abbrev S1x32x256 : Shape := ⟨3, ![1, 32, 256]⟩
abbrev S32x1x256 : Shape := ⟨3, ![32, 1, 256]⟩
abbrev S32x32x256 : Shape := ⟨3, ![32, 32, 256]⟩
abbrev S1024x256 : Shape := ⟨2, ![1024, 256]⟩
abbrev S1024x1x256 : Shape := ⟨3, ![1024, 1, 256]⟩
abbrev S1024x32x256 : Shape := ⟨3, ![1024, 32, 256]⟩
abbrev S32768x256 : Shape := ⟨2, ![32768, 256]⟩
abbrev S2048x256 : Shape := ⟨2, ![2048, 256]⟩

abbrev nBuf : Space → Nat
  | .hbm => 24
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S32x256, .f32⟩
  | .hbm, ⟨2, _⟩ => ⟨S32x256, .f32⟩
  | .hbm, ⟨3, _⟩ => ⟨S32x256, .f32⟩
  | .hbm, ⟨4, _⟩ => ⟨S_, .f32⟩
  | .hbm, ⟨5, _⟩ => ⟨S1x256, .f32⟩
  | .hbm, ⟨6, _⟩ => ⟨S1x1x256, .f32⟩
  | .hbm, ⟨7, _⟩ => ⟨S1x32x256, .f32⟩
  | .hbm, ⟨8, _⟩ => ⟨S1x32x256, .f32⟩
  | .hbm, ⟨9, _⟩ => ⟨S1x32x256, .f32⟩
  | .hbm, ⟨10, _⟩ => ⟨S32x256, .f32⟩
  | .hbm, ⟨11, _⟩ => ⟨S32x1x256, .f32⟩
  | .hbm, ⟨12, _⟩ => ⟨S1x32x256, .f32⟩
  | .hbm, ⟨13, _⟩ => ⟨S32x32x256, .f32⟩
  | .hbm, ⟨14, _⟩ => ⟨S32x32x256, .f32⟩
  | .hbm, ⟨15, _⟩ => ⟨S32x32x256, .f32⟩
  | .hbm, ⟨16, _⟩ => ⟨S1024x256, .f32⟩
  | .hbm, ⟨17, _⟩ => ⟨S1024x1x256, .f32⟩
  | .hbm, ⟨18, _⟩ => ⟨S1x32x256, .f32⟩
  | .hbm, ⟨19, _⟩ => ⟨S1024x32x256, .f32⟩
  | .hbm, ⟨20, _⟩ => ⟨S1024x32x256, .f32⟩
  | .hbm, ⟨21, _⟩ => ⟨S1024x32x256, .f32⟩
  | .hbm, ⟨22, _⟩ => ⟨S32768x256, .f32⟩
  | .hbm, ⟨23, _⟩ => ⟨S2048x256, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]

class Facts₀ : Prop where
  bcast_S_S1x256 : S_.BroadcastsInDim S1x256 (![] : Fin 0 → Fin S1x256.rank)
  bcast_S1x256_S1x1x256_0_2 : S1x256.BroadcastsInDim S1x1x256 (![0, 2] : Fin 2 → Fin S1x1x256.rank)
  bcast_S32x256_S1x32x256_1_2 : S32x256.BroadcastsInDim S1x32x256 (![1, 2] : Fin 2 → Fin S1x32x256.rank)
  bcast_S1x1x256_S1x32x256_0_1_2 : S1x1x256.BroadcastsInDim S1x32x256 (![0, 1, 2] : Fin 3 → Fin S1x32x256.rank)
  shapeCasts_S1x32x256_S32x256 : S1x32x256.ShapeCasts S32x256
  bcast_S32x256_S32x1x256_0_2 : S32x256.BroadcastsInDim S32x1x256 (![0, 2] : Fin 2 → Fin S32x1x256.rank)
  bcast_S32x1x256_S32x32x256_0_1_2 : S32x1x256.BroadcastsInDim S32x32x256 (![0, 1, 2] : Fin 3 → Fin S32x32x256.rank)
  bcast_S1x32x256_S32x32x256_0_1_2 : S1x32x256.BroadcastsInDim S32x32x256 (![0, 1, 2] : Fin 3 → Fin S32x32x256.rank)
  shapeCasts_S32x32x256_S1024x256 : S32x32x256.ShapeCasts S1024x256
  bcast_S1024x256_S1024x1x256_0_2 : S1024x256.BroadcastsInDim S1024x1x256 (![0, 2] : Fin 2 → Fin S1024x1x256.rank)
  bcast_S1024x1x256_S1024x32x256_0_1_2 : S1024x1x256.BroadcastsInDim S1024x32x256 (![0, 1, 2] : Fin 3 → Fin S1024x32x256.rank)
  bcast_S1x32x256_S1024x32x256_0_1_2 : S1x32x256.BroadcastsInDim S1024x32x256 (![0, 1, 2] : Fin 3 → Fin S1024x32x256.rank)
  shapeCasts_S1024x32x256_S32768x256 : S1024x32x256.ShapeCasts S32768x256
  dot_S2048x32768_S32768x256_S2048x256_1_0_0_1_n_n_wf : DotDims.WF S2048x32768 S32768x256 S2048x256 [1] [0] [0] [1] [] []

variable [Facts₀]

def dot_S2048x32768_S32768x256_S2048x256_1_0_0_1_n_n : DotDims S2048x32768 S32768x256 S2048x256 where
  lhsContracting := [1]
  rhsContracting := [0]
  lhsNonContracting := [0]
  rhsNonContracting := [1]
  lhsBatch := []
  rhsBatch := []
  wf := dot_S2048x32768_S32768x256_S2048x256_1_0_0_1_n_n_wf

class Facts : Prop extends Facts₀ where

variable [Facts]
-- ==== Proof.KFrameW.lean ====
/-
  The first launch: the Khatri-Rao table W.  Its grid has four points; point t sees all of U0 and U1 (both
  staged once, at the first point), rows 8t .. 8t+7 of U2, and writes rows 8192 t .. 8192 t + 8191 of W.
  Everything here is stated at a parameter V, the contents of the core's buffers when the launch is entered,
  and for any float instance F: what each window's staging buffer holds when the body runs, the body's run,
  and the obligation the pipeline asks of the body at every point.
-/
import proofs.«155811_j69466801045558_1_alg».proof.Proof.Gen.Kernel.Launch
import proofs.«155811_j69466801045558_1_alg».proof.Proof.Gen.Kernel.Skeleton
import proofs.«155811_j69466801045558_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, cut out of the window's array as the launch finds it. -/
def blkW (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds the input's block at every point, whether the point fetched it or not
    (an unfetched window's block index has not moved). One statement per input window. -/
theorem inW0_of {c : Dev nD} (dat : Dat τ (Elt F) Unit ℕ (UR sig nD τ) ℕ cfg0 c) (hA : dat.A 0 = V c (Pipeline.arrRef spec0 0))
    (hafter : ∀ t, dat.after 0 t = blkW V c 0 t) (t : Fin cfg0.N) (d) : dat.before 0 t d = blkW V c 0 t :=
  (dat.before_in_eq_fetched 0 rfl (fun _ => rfl) (fun _ _ _ => rfl) (fun t => by rw [hafter]; unfold Dat.blockOf blkW; rw [hA]; try rfl) t d).trans
    (by unfold Dat.fetched Dat.blockOf blkW; rw [hA]; try rfl)
theorem inW1_of {c : Dev nD} (dat : Dat τ (Elt F) Unit ℕ (UR sig nD τ) ℕ cfg0 c) (hA : dat.A 1 = V c (Pipeline.arrRef spec0 1))
    (hafter : ∀ t, dat.after 1 t = blkW V c 1 t) (t : Fin cfg0.N) (d) : dat.before 1 t d = blkW V c 1 t :=
  (dat.before_in_eq_fetched 1 rfl (fun _ => rfl) (fun _ _ _ => rfl) (fun t => by rw [hafter]; unfold Dat.blockOf blkW; rw [hA]; try rfl) t d).trans
    (by unfold Dat.fetched Dat.blockOf blkW; rw [hA]; try rfl)
theorem inW2_of {c : Dev nD} (dat : Dat τ (Elt F) Unit ℕ (UR sig nD τ) ℕ cfg0 c) (hA : dat.A 2 = V c (Pipeline.arrRef spec0 2))
    (hafter : ∀ t, dat.after 2 t = blkW V c 2 t) (t : Fin cfg0.N) (d) : dat.before 2 t d = blkW V c 2 t :=
  (dat.before_in_eq_fetched 2 rfl (fun _ => rfl) (fun _ _ _ => rfl) (fun t => by rw [hafter]; unfold Dat.blockOf blkW; rw [hA]; try rfl) t d).trans
    (by unfold Dat.fetched Dat.blockOf blkW; rw [hA]; try rfl)

/-- The whole-buffer rectangles the body reads and writes through. -/
abbrev rU : Rect S32x256 := Rect.unit (s := S32x256) ![0, 0] S32x256.size inb_S32x256_S32x256_0_0
abbrev rG : Rect S8x256 := Rect.unit (s := S8x256) ![0, 0] S8x256.size inb_S8x256_S8x256_0_0
abbrev rW : Rect S8192x256 := Rect.unit (s := S8192x256) ![0, 0] S8192x256.size inb_S8192x256_S8192x256_0_0

/-- What the body leaves in W's staging buffer: its one store, of the product of the three loaded blocks. -/
def wBlock (u0 u1 : Vec F S32x256 .f32) (u2 : Vec F S8x256 .f32) : Vec F S8192x256 .bf16 :=
  View.canon [⟨rW, k0_pay1 (View.ld u0 rU) (View.ld u1 rU) (View.ld u2 rG)⟩]

/-- The one store fills the buffer. -/
theorem wBlock_cover (p0 : Vec F S8192x256 .bf16) (y : S8192x256.Idx) :
    ∃ pc ∈ ([⟨rW, p0⟩] : List (View.Piece (Elt F) S8192x256 .bf16)), y ∈ pc.1.set :=
  View.cover_of_tiled [⟨rW, p0⟩] S8192x256.size (by rfl) y

set_option maxHeartbeats 1000000 in
/-- The body on whole staging buffers: the three inputs are read and left as they were, W's buffer ends at
    `wBlock` of them whatever it held. -/
theorem run_buildW (c : Dev nD) (E : Set ℕ) (i : grid0.Coords)
    (a1 : Memref sig .tc .vmem S32x256 .f32) (h1 : a1.IsWhole) (a2 : Memref sig .tc .vmem S32x256 .f32) (h2 : a2.IsWhole)
    (a3 : Memref sig .tc .vmem S8x256 .f32) (h3 : a3.IsWhole) (a4 : Memref sig .tc .vmem S8192x256 .bf16) (h4 : a4.IsWhole)
    (u0 u1 : Vec F S32x256 .f32) (u2 : Vec F S8x256 .f32) (K : PUnit → sProp 𝕄) :
    iprop(owns (c : Thread nD τ) a1 fullShare u0 ∗ owns (c : Thread nD τ) a2 fullShare u1 ∗ owns (c : Thread nD τ) a3 fullShare u2
        ∗ (∃ d, owns (c : Thread nD τ) a4 fullShare d)
        ∗ (iprop(owns (c : Thread nD τ) a1 fullShare u0 ∗ owns (c : Thread nD τ) a2 fullShare u1 ∗ owns (c : Thread nD τ) a3 fullShare u2
            ∗ owns (c : Thread nD τ) a4 fullShare (wBlock u0 u1 u2)) -∗ K ⟨⟩))
      ⊢ wp frame (wpE (defs₀ (F := F)) Variants.none c none) E (cc0__build_w_kernel i a1 h1 a2 h2 a3 h3 a4 h4) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wBlock_cover _)

/-- The first launch's proof data on core c: the arrays as found; after the body each input's buffer at its
    block, W's at the product of the point's blocks; the invariant is the untouched rest (the other launch's
    buffers and the generator register); nothing owed. -/
def datW (c : Dev nD) : Dat τ (Elt F) Unit ℕ (UR sig nD τ) ℕ cfg0 c where
  A w := V c (Pipeline.arrRef spec0 w)
  after w t := match w with
    | ⟨0, _⟩ => blkW V c 0 t
    | ⟨1, _⟩ => blkW V c 1 t
    | ⟨2, _⟩ => blkW V c 2 t
    | ⟨3, _⟩ => wBlock (blkW V c 0 t) (blkW V c 1 t) (blkW V c 2 t)
  Φ _ := Pipeline.ΦA spec0 c
  q _ := fullShare
  owed _ := 0

theorem datW_A (c : Dev nD) (w : Fin cfg0.W) : (datW V c).A w = V c (Pipeline.arrRef spec0 w) := by
  dsimp only [datW]
theorem datW_after0 (c : Dev nD) (t : Fin cfg0.N) : (datW V c).after 0 t = blkW V c 0 t := by dsimp only [datW]
theorem datW_after1 (c : Dev nD) (t : Fin cfg0.N) : (datW V c).after 1 t = blkW V c 1 t := by dsimp only [datW]
theorem datW_after2 (c : Dev nD) (t : Fin cfg0.N) : (datW V c).after 2 t = blkW V c 2 t := by dsimp only [datW]
theorem datW_after3 (c : Dev nD) (t : Fin cfg0.N) :
    (datW V c).after 3 t = wBlock (blkW V c 0 t) (blkW V c 1 t) (blkW V c 2 t) := by dsimp only [datW]

theorem datW_before0 (c : Dev nD) (t : Fin cfg0.N) (d) : (datW V c).before 0 t d = blkW V c 0 t :=
  inW0_of V (datW V c) (datW_A V c 0) (datW_after0 V c) t d
theorem datW_before1 (c : Dev nD) (t : Fin cfg0.N) (d) : (datW V c).before 1 t d = blkW V c 1 t :=
  inW1_of V (datW V c) (datW_A V c 1) (datW_after1 V c) t d
theorem datW_before2 (c : Dev nD) (t : Fin cfg0.N) (d) : (datW V c).before 2 t d = blkW V c 2 t :=
  inW2_of V (datW V c) (datW_A V c 2) (datW_after2 V c) t d

/-- What the pipeline hands the body at point t, window by window, -/
def preW (c : Dev nD) (t : Fin cfg0.N) : sProp 𝕄 :=
  iprop((datW V c).Φ t.castSucc ∗ (datW V c).owesAt () t.castSucc
    ∗ (∃ d, owns (c : Thread nD τ) (st0_0 t) fullShare ((datW V c).before 0 t d))
    ∗ (∃ d, owns (c : Thread nD τ) (st0_1 t) fullShare ((datW V c).before 1 t d))
    ∗ (∃ d, owns (c : Thread nD τ) (st0_2 t) fullShare ((datW V c).before 2 t d))
    ∗ (∃ d, owns (c : Thread nD τ) (st0_3 t) fullShare ((datW V c).before 3 t d)))

/-- and what it takes back. -/
def postW (c : Dev nD) (t : Fin cfg0.N) : sProp 𝕄 :=
  iprop((datW V c).Φ t.succ ∗ (datW V c).owesAt () t.succ
    ∗ owns (c : Thread nD τ) (st0_0 t) fullShare ((datW V c).after 0 t)
    ∗ owns (c : Thread nD τ) (st0_1 t) fullShare ((datW V c).after 1 t)
    ∗ owns (c : Thread nD τ) (st0_2 t) fullShare ((datW V c).after 2 t)
    ∗ owns (c : Thread nD τ) (st0_3 t) fullShare ((datW V c).after 3 t))

/-- The body at any point: the inputs' buffers hold their blocks, so the run applies; the invariant and the
    core's dues pass through unread. -/
theorem bodyW (c : Dev nD) (t : Fin cfg0.N) :
    preW V c t ⊢ wp frame (wpE (defs₀ (F := F)) Variants.none c none) Set.univ (bodyAt0 t) (fun _ => postW V c t) := by
  unfold preW postW bodyAt0
  simp only [datW_before0, datW_before1, datW_before2]
  rw [show (datW V c).Φ t.succ = (datW V c).Φ t.castSucc from rfl,
    show (datW V c).owesAt () t.succ = (datW V c).owesAt () t.castSucc from rfl,
    datW_after0, datW_after1, datW_after2, datW_after3]
  iintro ⟨HΦ, Ho, ⟨%d0, H0⟩, ⟨%d1, H1⟩, ⟨%d2, H2⟩, ⟨%d3, H3⟩⟩
  iapply (run_buildW c Set.univ _ _ _ _ _ _ _ _ _ (blkW V c 0 t) (blkW V c 1 t) (blkW V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem obligationW (c : Dev nD) : BodyObligation (datW (F := F) V c) (defs₀ (F := F)) Variants.none () Set.univ := fun t => by
  rw [bigSep_W0, bigSep_W0]
  exact bodyW V c t

end Cert.Kernel.Frm

end
-- ==== Proof.KFrameX.lean ====
/-
  The second launch: out = x · W, accumulated over sixteen column blocks.  Its grid is 2 × 16; point (i, k)
  sees rows 1024 i .. of x at columns 2048 k .., rows 2048 k .. of W, and adds their product into an
  accumulator the kernel keeps in a scratch buffer from one point to the next: zeroed when k = 0, copied to
  the output block when k = 15 (the only points that store into the output, and the only points whose block
  is written back).  Stated at a parameter V (the buffers' contents when the launch is entered) and for any
  float instance F: the three shapes of a point (first, middle, last of a row of sixteen), what the
  accumulator holds after each point, the invariant that carries it, and the pipeline's obligation on the body.
-/
import proofs.«155811_j69466801045558_1_alg».proof.Proof.Gen.Kernel.Launch
import proofs.«155811_j69466801045558_1_alg».proof.Proof.Gen.Kernel.Skeleton
import proofs.«155811_j69466801045558_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, cut out of the window's array as the launch finds it. -/
def blkX (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two inputs' blocks at their literal types. -/
abbrev xBlk (c : Dev nD) (t : Fin cfg1.N) : Vec F S1024x2048 .f32 := blkX V c 0 t
abbrev wBlk (c : Dev nD) (t : Fin cfg1.N) : Vec F S2048x256 .bf16 := blkX V c 1 t

/-- An input's staging buffer holds the input's block at every point. -/
theorem inX0_of {c : Dev nD} (dat : Dat τ (Elt F) Unit ℕ (UR sig nD τ) ℕ cfg1 c) (hA : dat.A 0 = V c (Pipeline.arrRef spec1 0))
    (hafter : ∀ t, dat.after 0 t = blkX V c 0 t) (t : Fin cfg1.N) (d) : dat.before 0 t d = blkX V c 0 t :=
  (dat.before_in_eq_fetched 0 rfl (fun _ => rfl) (fun _ _ _ => rfl) (fun t => by rw [hafter]; unfold Dat.blockOf blkX; rw [hA]; try rfl) t d).trans
    (by unfold Dat.fetched Dat.blockOf blkX; rw [hA]; try rfl)
theorem inX1_of {c : Dev nD} (dat : Dat τ (Elt F) Unit ℕ (UR sig nD τ) ℕ cfg1 c) (hA : dat.A 1 = V c (Pipeline.arrRef spec1 1))
    (hafter : ∀ t, dat.after 1 t = blkX V c 1 t) (t : Fin cfg1.N) (d) : dat.before 1 t d = blkX V c 1 t :=
  (dat.before_in_eq_fetched 1 rfl (fun _ => rfl) (fun _ _ _ => rfl) (fun t => by rw [hafter]; unfold Dat.blockOf blkX; rw [hA]; try rfl) t d).trans
    (by unfold Dat.fetched Dat.blockOf blkX; rw [hA]; try rfl)

/-! ## The shape of a point -/

/-- k = 0, as the body computes it, -/
abbrev firstK (i : grid1.Coords) : Prop := (Scalar.cmpi .ne (Scalar.extui (Scalar.cmpi .eq (BitVec.ofNat 32 (i 1).val) 0#32)) 0#32) = 1#1
/-- and k = 15. -/
abbrev lastK (i : grid1.Coords) : Prop := k1_cond2 i = 1#1

theorem firstK_iff : ∀ t : Fin cfg1.N, firstK (grid1.coords t) ↔ t.val % 16 = 0 :=
  (by decide +kernel : ∀ t : Fin grid1.N, firstK (grid1.coords t) ↔ t.val % 16 = 0)
theorem lastK_iff : ∀ t : Fin cfg1.N, lastK (grid1.coords t) ↔ t.val % 16 = 15 :=
  (by decide +kernel : ∀ t : Fin grid1.N, lastK (grid1.coords t) ↔ t.val % 16 = 15)

/-- The inputs are stored into nowhere; the output is stored into exactly where k = 15, and written back exactly there. -/
theorem live0 : ∀ t : Fin cfg1.N, cfg1.idle 0 (grid1.coords t) = false := by decide +kernel
theorem live1 : ∀ t : Fin cfg1.N, cfg1.idle 1 (grid1.coords t) = false := by decide +kernel
theorem idle2_of : ∀ t : Fin cfg1.N, ¬lastK (grid1.coords t) → cfg1.idle 2 (grid1.coords t) = true := by decide +kernel
theorem noFlush2_of : ∀ t : Fin cfg1.N, ¬lastK (grid1.coords t) → (cfg1.win 2).flush t = false := by decide +kernel
theorem live2_of : ∀ t : Fin cfg1.N, lastK (grid1.coords t) → cfg1.idle 2 (grid1.coords t) = false := by decide +kernel

/-! ## The body's runs -/

theorem hz : (![0, 0] : Fin 2 → Nat) = fun _ => 0 := funext fun a => by fin_cases a <;> rfl

/-- A store through the whole-buffer rectangle, last, covers the buffer whatever came before it. -/
theorem cover_whole {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self .., by show y ∈ (Rect.whole S).set; rw [Rect.set_whole]; exact Finset.mem_univ y⟩

/-- The scratch buffer the accumulator lives in. -/
abbrev scM : Memref sig .tc .vmem S1024x256 .f32 := Memref.whole cc1_scratch0

set_option maxHeartbeats 1000000 in
/-- A point with k = 0 (and k ≠ 15): the accumulator, whatever it held, is zeroed and then takes the product;
    the output's buffer is not touched. -/
theorem run_first (c : Dev nD) (E : Set ℕ) (i : grid1.Coords) (hc0 : firstK i) (hc1 : ¬lastK i)
    (a2 : Memref sig .tc .vmem S1024x2048 .f32) (h2 : a2.IsWhole) (a3 : Memref sig .tc .vmem S2048x256 .bf16) (h3 : a3.IsWhole)
    (a4 : Memref sig .tc .vmem S1024x256 .f32) (h4 : a4.IsWhole) (a5 : Memref sig .tc .vmem S1024x256 .f32) (h5 : a5.IsWhole)
    (x : Vec F S1024x2048 .f32) (w : Vec F S2048x256 .bf16) (o : Vec F S1024x256 .f32) (K : PUnit → sProp 𝕄) :
    iprop(owns (c : Thread nD τ) a2 fullShare x ∗ owns (c : Thread nD τ) a3 fullShare w ∗ owns (c : Thread nD τ) a4 fullShare o
        ∗ (∃ d, owns (c : Thread nD τ) a5 fullShare d)
        ∗ (iprop(owns (c : Thread nD τ) a2 fullShare x ∗ owns (c : Thread nD τ) a3 fullShare w ∗ owns (c : Thread nD τ) a4 fullShare o
            ∗ owns (c : Thread nD τ) a5 fullShare (k1_pay2 x w k1_pay1)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_whole hz _ _ _), View.canon_cons_unit_zero (S := S1024x256) hz,
    View.readCov_unit_zero (S := S1024x256) _ hz]
  simp only [View.readAt_eq_ld, View.ld_unit_zero (S := S1024x2048) hz, View.ld_unit_zero (S := S2048x256) hz]

set_option maxHeartbeats 1000000 in
/-- A point with 0 < k < 15: the accumulator takes the product on top of what it held; the output's buffer is
    not touched. -/
theorem run_mid (c : Dev nD) (E : Set ℕ) (i : grid1.Coords) (hc0 : ¬firstK i) (hc1 : ¬lastK i)
    (a2 : Memref sig .tc .vmem S1024x2048 .f32) (h2 : a2.IsWhole) (a3 : Memref sig .tc .vmem S2048x256 .bf16) (h3 : a3.IsWhole)
    (a4 : Memref sig .tc .vmem S1024x256 .f32) (h4 : a4.IsWhole) (a5 : Memref sig .tc .vmem S1024x256 .f32) (h5 : a5.IsWhole)
    (x : Vec F S1024x2048 .f32) (w : Vec F S2048x256 .bf16) (o prev : Vec F S1024x256 .f32) (K : PUnit → sProp 𝕄) :
    iprop(owns (c : Thread nD τ) a2 fullShare x ∗ owns (c : Thread nD τ) a3 fullShare w ∗ owns (c : Thread nD τ) a4 fullShare o
        ∗ owns (c : Thread nD τ) a5 fullShare prev
        ∗ (iprop(owns (c : Thread nD τ) a2 fullShare x ∗ owns (c : Thread nD τ) a3 fullShare w ∗ owns (c : Thread nD τ) a4 fullShare o
            ∗ owns (c : Thread nD τ) a5 fullShare (k1_pay2 x w prev)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_whole hz _ _ _), View.canon_unit_zero hz]
  simp only [View.readAt_eq_ld, View.ld_unit_zero (S := S1024x2048) hz, View.ld_unit_zero (S := S2048x256) hz,
    View.ld_unit_zero (S := S1024x256) hz]

set_option maxHeartbeats 1000000 in
/-- A point with k = 15 (and k ≠ 0): the accumulator takes the last product, and the output's buffer, whatever it
    held, takes the accumulator. -/
theorem run_last (c : Dev nD) (E : Set ℕ) (i : grid1.Coords) (hc0 : ¬firstK i) (hc1 : lastK i)
    (a2 : Memref sig .tc .vmem S1024x2048 .f32) (h2 : a2.IsWhole) (a3 : Memref sig .tc .vmem S2048x256 .bf16) (h3 : a3.IsWhole)
    (a4 : Memref sig .tc .vmem S1024x256 .f32) (h4 : a4.IsWhole) (a5 : Memref sig .tc .vmem S1024x256 .f32) (h5 : a5.IsWhole)
    (x : Vec F S1024x2048 .f32) (w : Vec F S2048x256 .bf16) (prev : Vec F S1024x256 .f32) (K : PUnit → sProp 𝕄) :
    iprop(owns (c : Thread nD τ) a2 fullShare x ∗ owns (c : Thread nD τ) a3 fullShare w ∗ (∃ d, owns (c : Thread nD τ) a4 fullShare d)
        ∗ owns (c : Thread nD τ) a5 fullShare prev
        ∗ (iprop(owns (c : Thread nD τ) a2 fullShare x ∗ owns (c : Thread nD τ) a3 fullShare w
            ∗ owns (c : Thread nD τ) a4 fullShare (k1_pay2 x w prev)
            ∗ owns (c : Thread nD τ) a5 fullShare (k1_pay2 x w prev)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_whole hz _ _ _), View.canon_unit_zero hz,
      View.readCov_unit_zero (S := S1024x256) _ hz]
    simp only [View.readAt_eq_ld, View.ld_unit_zero (S := S1024x2048) hz, View.ld_unit_zero (S := S2048x256) hz,
      View.ld_unit_zero (S := S1024x256) hz]
  iexists _; isplitr
  swap; · iexact H3
  ipureintro
  sl_unfold_words
  rw [View.read_writes_eq_canon _ _ _ (cover_whole hz _ _ _), View.canon_unit_zero hz]
  simp only [View.readAt_eq_ld, View.ld_unit_zero (S := S1024x2048) hz, View.ld_unit_zero (S := S2048x256) hz,
    View.ld_unit_zero (S := S1024x256) hz]

end Cert.Kernel.Frm

end
-- ==== Proof.KFrameXData.lean ====
/-
  The second launch, continued: what the accumulator holds after every point, the invariant that carries it from
  one point to the next, the launch's proof data, and the pipeline's obligation on the body at every point.
  The accumulator after point n is the block product at n on top of zero when n starts a row of sixteen, and on
  top of the accumulator after n - 1 otherwise.
-/
import proofs.«155811_j69466801045558_1_alg».proof.Proof.Gen.Kernel.Launch
import proofs.«155811_j69466801045558_1_alg».proof.Proof.Gen.Kernel.Skeleton
import proofs.«155811_j69466801045558_1_alg».proof.Proof.Gen.Kernel.Points
import proofs.«155811_j69466801045558_1_alg».proof.Proof.KFrameX
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the scratch buffer holds after the body at position n. -/
def accAt (c : Dev nD) : (n : ℕ) → n < cfg1.N → Vec F S1024x256 .f32
  | 0, hn => k1_pay2 (xBlk V c ⟨0, hn⟩) (wBlk V c ⟨0, hn⟩) k1_pay1
  | n + 1, hn =>
    if (n + 1) % 16 = 0 then k1_pay2 (xBlk V c ⟨n + 1, hn⟩) (wBlk V c ⟨n + 1, hn⟩) k1_pay1
    else k1_pay2 (xBlk V c ⟨n + 1, hn⟩) (wBlk V c ⟨n + 1, hn⟩) (accAt c n (Nat.lt_of_succ_lt hn))

theorem accAt_first (c : Dev nD) (t : Fin cfg1.N) (h : t.val % 16 = 0) :
    accAt V c t.val t.isLt = k1_pay2 (xBlk V c t) (wBlk V c t) k1_pay1 := by
  obtain ⟨n, hn⟩ := t
  cases n with
  | zero => rfl
  | succ n => exact if_pos h

theorem accAt_next (c : Dev nD) (t : Fin cfg1.N) (h : ¬t.val % 16 = 0) :
    accAt V c t.val t.isLt = k1_pay2 (xBlk V c t) (wBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- The launch's invariant opened: the first launch's six staging buffers at anything, the scratch buffer as S says,
    the generator register at some state. -/
def PhiOpen (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

theorem PhiOpen_mono (c : Dev nD) {S S' : sProp 𝕄} (h : S ⊢ S') : PhiOpen (F := F) c S ⊢ PhiOpen (F := F) c S' := by
  unfold PhiOpen
  iintro ⟨⟨Ha, Hb, Hc, Hd, He, Hf, HS⟩, Hg⟩
  isplitl [Ha Hb Hc Hd He Hf HS]
  · isplitl [Ha]; · iexact Ha
    isplitl [Hb]; · iexact Hb
    isplitl [Hc]; · iexact Hc
    isplitl [Hd]; · iexact Hd
    isplitl [He]; · iexact He
    isplitl [Hf]; · iexact Hf
    iapply h; iexact HS
  iexact Hg

/-- The launch's own invariant is the opened one with the scratch buffer at anything. -/
theorem PhiA_split (c : Dev nD) :
    (Pipeline.ΦA spec1 c : sProp 𝕄) = PhiOpen c iprop(∃ d, owns (c : Thread nD τ) scM fullShare d) := by
  unfold Pipeline.ΦA PhiOpen; rw [scopedRest1_eq]; simp only [scM, owns_whole]; try rfl

/-- The invariant before position n: before the first point, the launch's own; afterwards the opened one with the
    scratch buffer at what the point before left in it. -/
def PhiX (c : Dev nD) : (n : ℕ) → n ≤ cfg1.N → sProp 𝕄
  | 0, _ => Pipeline.ΦA spec1 c
  | n + 1, hn => PhiOpen c (owns (c : Thread nD τ) scM fullShare (accAt V c n hn))

theorem PhiX_zero (c : Dev nD) (n : ℕ) (h : n ≤ cfg1.N) (hz : n = 0) : PhiX V c n h = Pipeline.ΦA spec1 c := by
  subst hz; rfl

theorem PhiX_succ (c : Dev nD) (n : ℕ) (hn : n < cfg1.N) :
    PhiX V c (n + 1) hn = PhiOpen c (owns (c : Thread nD τ) scM fullShare (accAt V c n hn)) := rfl

theorem PhiX_pos (c : Dev nD) (n : ℕ) (h : n ≤ cfg1.N) (hz : n ≠ 0) :
    PhiX V c n h = PhiOpen c (owns (c : Thread nD τ) scM fullShare (accAt V c (n - 1) (by omega))) := by
  cases n with
  | zero => exact absurd rfl hz
  | succ n => rfl

/-- Before any point the scratch buffer is there at some contents. -/
theorem PhiX_forget (c : Dev nD) (n : ℕ) (h : n ≤ cfg1.N) :
    PhiX V c n h ⊢ PhiOpen c iprop(∃ d, owns (c : Thread nD τ) scM fullShare d) := by
  by_cases hz : n = 0
  · rw [PhiX_zero V c n h hz, PhiA_split]
  · rw [PhiX_pos V c n h hz]
    exact PhiOpen_mono c (by iintro H; iexists _; iexact H)

/-- The second launch's proof data on core c: the arrays as found; after the body each input's buffer at its block
    and the output's at the accumulator (what a point with k = 15 stores there; at the other points the buffer is
    handed back untouched and this entry is not consulted); the invariant carries the accumulator; nothing owed. -/
def datX (c : Dev nD) : Dat τ (Elt F) Unit ℕ (UR sig nD τ) ℕ cfg1 c where
  A w := V c (Pipeline.arrRef spec1 w)
  after w t := match w with
    | ⟨0, _⟩ => blkX V c 0 t
    | ⟨1, _⟩ => blkX V c 1 t
    | ⟨2, _⟩ => accAt V c t.val t.isLt
  Φ t := PhiX V c t.val (Nat.le_of_lt_succ t.isLt)
  q _ := fullShare
  owed _ := 0

theorem datX_A (c : Dev nD) (w : Fin cfg1.W) : (datX V c).A w = V c (Pipeline.arrRef spec1 w) := by
  dsimp only [datX]
theorem datX_Phi_start (c : Dev nD) (t : Fin cfg1.N) :
    (datX V c).Φ t.castSucc = PhiX V c t.val (Nat.le_of_lt t.isLt) := by
  dsimp only [datX]; simp only [Fin.coe_castSucc]
theorem datX_after0 (c : Dev nD) (t : Fin cfg1.N) : (datX V c).after 0 t = blkX V c 0 t := by dsimp only [datX]
theorem datX_after1 (c : Dev nD) (t : Fin cfg1.N) : (datX V c).after 1 t = blkX V c 1 t := by dsimp only [datX]
theorem datX_after2 (c : Dev nD) (t : Fin cfg1.N) : (datX V c).after 2 t = accAt V c t.val t.isLt := by dsimp only [datX]
theorem datX_before0 (c : Dev nD) (t : Fin cfg1.N) (d) : (datX V c).before 0 t d = blkX V c 0 t :=
  inX0_of V (datX V c) (datX_A V c 0) (datX_after0 V c) t d
theorem datX_before1 (c : Dev nD) (t : Fin cfg1.N) (d) : (datX V c).before 1 t d = blkX V c 1 t :=
  inX1_of V (datX V c) (datX_A V c 1) (datX_after1 V c) t d

/-- What the pipeline hands the body at point t, -/
def preX (c : Dev nD) (t : Fin cfg1.N) : sProp 𝕄 :=
  iprop((datX V c).Φ t.castSucc ∗ (datX V c).owesAt () t.castSucc
    ∗ (∃ d, owns (c : Thread nD τ) (st1_0 t) fullShare ((datX V c).before 0 t d))
    ∗ (∃ d, owns (c : Thread nD τ) (st1_1 t) fullShare ((datX V c).before 1 t d))
    ∗ (∃ d, owns (c : Thread nD τ) (st1_2 t) fullShare ((datX V c).before 2 t d)))

/-- and what it takes back. -/
def postX (c : Dev nD) (t : Fin cfg1.N) : sProp 𝕄 :=
  iprop((datX V c).Φ t.succ ∗ (datX V c).owesAt () t.succ
    ∗ (datX V c).leavesExact 0 t
    ∗ (datX V c).leavesExact 1 t
    ∗ (datX V c).leavesExact 2 t)

set_option maxHeartbeats 4000000 in
/-- The body at any point, by the point's place in its row of sixteen: the inputs' buffers hold their blocks; the
    invariant hands over the scratch buffer at what the point before left (at anything, where a row starts) and takes
    it back at this point's accumulator; the output's buffer comes back untouched except at a row's last point. -/
theorem bodyX (c : Dev nD) (t : Fin cfg1.N) :
    preX V c t ⊢ wp frame (wpE (defs₀ (F := F)) Variants.none c none) Set.univ (bodyAt1 t) (fun _ => postX V c t) := by
  unfold preX postX bodyAt1
  simp only [datX_before0, datX_before1]
  rw [show (datX V c).owesAt () t.succ = (datX V c).owesAt () t.castSucc from rfl]
  rw [show (datX V c).Φ t.succ = PhiX V c (t.val + 1) t.isLt from rfl, PhiX_succ]
  rw [show (datX V c).leavesExact 0 t = owns (c : Thread nD τ) (st1_0 t) fullShare ((datX V c).after 0 t) from by
    unfold Dat.leavesExact; rw [live0 t], datX_after0]
  rw [show (datX V c).leavesExact 1 t = owns (c : Thread nD τ) (st1_1 t) fullShare ((datX V c).after 1 t) from by
    unfold Dat.leavesExact; rw [live1 t], datX_after1]
  have hN : t.val < 32 := lt_of_lt_of_eq t.isLt (show cfg1.N = 32 from N_1)
  by_cases h0 : t.val % 16 = 0
  · have hl : ¬lastK (grid1.coords t) := fun h => by have := (lastK_iff t).mp h; omega
    have hf : firstK (grid1.coords t) := (firstK_iff t).mpr h0
    rw [Dat.leavesExact_idle (datX V c) 2 t (idle2_of t hl) (noFlush2_of t hl)]
    rw [accAt_first V c t h0, datX_Phi_start V c t]
    refine (sep_mono (PhiX_forget V c _ _) .rfl).trans ?_
    unfold PhiOpen
    iintro ⟨⟨⟨Ha, Hb, Hc, Hd, He, Hf, HS⟩, Hg⟩, Ho, ⟨%d0, H0⟩, ⟨%d1, H1⟩, ⟨%d2, H2⟩⟩
    iapply (run_first c Set.univ (grid1.coords t) hf hl _ _ _ _ _ _ _ _ (xBlk V c t) (wBlk V c t) _ _)
    isplitl [H0]; · iexact H0
    isplitl [H1]; · iexact H1
    isplitl [H2]; · iexact H2
    isplitl [HS]; · iexact HS
    iintro ⟨H0, H1, H2, HS⟩
    isplitl [Ha Hb Hc Hd He Hf HS Hg]
    · isplitl [Ha Hb Hc Hd He Hf HS]
      · isplitl [Ha]; · iexact Ha
        isplitl [Hb]; · iexact Hb
        isplitl [Hc]; · iexact Hc
        isplitl [Hd]; · iexact Hd
        isplitl [He]; · iexact He
        isplitl [Hf]; · iexact Hf
        iexact HS
      iexact Hg
    isplitl [Ho]; · iexact Ho
    isplitl [H0]; · iexact H0
    isplitl [H1]; · iexact H1
    iexists d2; iexact H2
  · have hf : ¬firstK (grid1.coords t) := fun h => h0 ((firstK_iff t).mp h)
    have hz : t.val ≠ 0 := fun e => h0 (by rw [e])
    rw [accAt_next V c t h0, datX_Phi_start V c t, PhiX_pos V c _ _ hz]
    unfold PhiOpen
    by_cases h1 : t.val % 16 = 15
    · have hl : lastK (grid1.coords t) := (lastK_iff t).mpr h1
      rw [show (datX V c).leavesExact 2 t = owns (c : Thread nD τ) (st1_2 t) fullShare ((datX V c).after 2 t) from by
        unfold Dat.leavesExact; rw [live2_of t hl], datX_after2, accAt_next V c t h0]
      iintro ⟨⟨⟨Ha, Hb, Hc, Hd, He, Hf, HS⟩, Hg⟩, Ho, ⟨%d0, H0⟩, ⟨%d1, H1⟩, ⟨%d2, H2⟩⟩
      iapply (run_last c Set.univ (grid1.coords t) hf hl _ _ _ _ _ _ _ _ (xBlk V c t) (wBlk V c t) _ _)
      isplitl [H0]; · iexact H0
      isplitl [H1]; · iexact H1
      isplitl [H2]; · iexists _; iexact H2
      isplitl [HS]; · iexact HS
      iintro ⟨H0, H1, H2, HS⟩
      isplitl [Ha Hb Hc Hd He Hf HS Hg]
      · isplitl [Ha Hb Hc Hd He Hf HS]
        · isplitl [Ha]; · iexact Ha
          isplitl [Hb]; · iexact Hb
          isplitl [Hc]; · iexact Hc
          isplitl [Hd]; · iexact Hd
          isplitl [He]; · iexact He
          isplitl [Hf]; · iexact Hf
          iexact HS
        iexact Hg
      isplitl [Ho]; · iexact Ho
      isplitl [H0]; · iexact H0
      isplitl [H1]; · iexact H1
      iexact H2
    · have hl : ¬lastK (grid1.coords t) := fun h => h1 ((lastK_iff t).mp h)
      rw [Dat.leavesExact_idle (datX V c) 2 t (idle2_of t hl) (noFlush2_of t hl)]
      iintro ⟨⟨⟨Ha, Hb, Hc, Hd, He, Hf, HS⟩, Hg⟩, Ho, ⟨%d0, H0⟩, ⟨%d1, H1⟩, ⟨%d2, H2⟩⟩
      iapply (run_mid c Set.univ (grid1.coords t) hf hl _ _ _ _ _ _ _ _ (xBlk V c t) (wBlk V c t) _ _ _)
      isplitl [H0]; · iexact H0
      isplitl [H1]; · iexact H1
      isplitl [H2]; · iexact H2
      isplitl [HS]; · iexact HS
      iintro ⟨H0, H1, H2, HS⟩
      isplitl [Ha Hb Hc Hd He Hf HS Hg]
      · isplitl [Ha Hb Hc Hd He Hf HS]
        · isplitl [Ha]; · iexact Ha
          isplitl [Hb]; · iexact Hb
          isplitl [Hc]; · iexact Hc
          isplitl [Hd]; · iexact Hd
          isplitl [He]; · iexact He
          isplitl [Hf]; · iexact Hf
          iexact HS
        iexact Hg
      isplitl [Ho]; · iexact Ho
      isplitl [H0]; · iexact H0
      isplitl [H1]; · iexact H1
      iexists d2; iexact H2

/-- The pipeline's obligation on the body, at every point. -/
theorem obligationX (c : Dev nD) : BodyObligation (datX (F := F) V c) (defs₀ (F := F)) Variants.none () Set.univ := fun t => by
  rw [bigSep_W1, bigSep_W1]
  exact bodyX V c t

/-- What the launch hands the region is the invariant before the first point. -/
theorem enterX (c : Dev nD) : Pipeline.ΦA spec1 c ⊢ (datX V c).Φ 0 := by
  rw [show (datX V c).Φ 0 = PhiX V c 0 (Nat.zero_le _) from rfl, PhiX_zero V c 0 _ rfl]

/-- After the last point the invariant gives the launch's own back: the accumulator's contents are forgotten. -/
theorem leaveX (c : Dev nD) : (datX V c).Φ (Fin.last cfg1.N) ⊢ Pipeline.ΦA spec1 c := by
  rw [show (datX V c).Φ (Fin.last cfg1.N) = PhiX V c (Fin.last cfg1.N).val (Nat.le_of_lt_succ (Fin.last cfg1.N).isLt) from rfl,
    PhiA_split]
  exact PhiX_forget V c _ _

end Cert.Kernel.Frm

end
-- ==== Proof.KFrameRun.lean ====
/-
  The whole program: the two launches in a row.  Between them the core's buffers are the launch memory with W's
  array at what the first launch's write-backs leave; after the second, also the result's array at what the second
  launch's write-backs leave.  No launch writes an argument.  From the two regions' obligations, every weakly fair
  execution of @main terminates, faults nowhere, and ends with the result's array at the second launch's final
  contents and the four arguments as launched — for any float instance F.
-/
import proofs.«155811_j69466801045558_1_alg».proof.Proof.Gen.Kernel.Launch
import proofs.«155811_j69466801045558_1_alg».proof.Proof.Gen.Kernel.Skeleton
import proofs.«155811_j69466801045558_1_alg».proof.Proof.Gen.Kernel.Points
import proofs.«155811_j69466801045558_1_alg».proof.Proof.KFrameW
import proofs.«155811_j69466801045558_1_alg».proof.Proof.KFrameXData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev B0 : Dev nD → Valuation τ sig (Elt F) := fun c b => m (c, b)
abbrev C0 : (c : Dev nD) → (b : Ref sig .tc) → Buf (Elt F) ((c : Thread nD τ).loc b) := fun c b => B0 m c b
/-- After the first launch: its arrays at what its write-backs leave, every other buffer as before. -/
def B1 (c : Dev nD) : Valuation τ sig (Elt F) :=
  Pipeline.withArrays spec0 c (B0 m c) fun w => (datW (C0 m) c).arrAt w cfg0.N
theorem B1_arr (c : Dev nD) (w : Fin cfg0.W) :
    B1 m c (Proc.devRef .tc (Pipeline.arrRef spec0 w)) = (datW (C0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev C1 : (c : Dev nD) → (b : Ref sig .tc) → Buf (Elt F) ((c : Thread nD τ).loc b) := fun c b => B1 m c b
theorem exitW (c : Dev nD) (w : Fin cfg0.W) : (datW (C0 m) c).arrAt w cfg0.N = C1 m c (Pipeline.arrRef spec0 w) :=
  (B1_arr m c w).symm
theorem keepW (c : Dev nD) : ∀ b, b ∉ Finset.univ.image (Pipeline.arrRef spec0) → C1 m c b = C0 m c b :=
  fun b hb => B1_of_ne m c b fun w e => hb (Finset.mem_image.mpr ⟨w, Finset.mem_univ _, e⟩)

/-- After the second launch. -/
def B2 (c : Dev nD) : Valuation τ sig (Elt F) :=
  Pipeline.withArrays spec1 c (B1 m c) fun w => (datX (C1 m) c).arrAt w cfg1.N
theorem B2_arr (c : Dev nD) (w : Fin cfg1.W) :
    B2 m c (Proc.devRef .tc (Pipeline.arrRef spec1 w)) = (datX (C1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev C2 : (c : Dev nD) → (b : Ref sig .tc) → Buf (Elt F) ((c : Thread nD τ).loc b) := fun c b => B2 m c b
theorem exitX (c : Dev nD) (w : Fin cfg1.W) : (datX (C1 m) c).arrAt w cfg1.N = C2 m c (Pipeline.arrRef spec1 w) :=
  (B2_arr m c w).symm
theorem keepX (c : Dev nD) : ∀ b, b ∉ Finset.univ.image (Pipeline.arrRef spec1) → C2 m c b = C1 m c b :=
  fun b hb => B2_of_ne m c b fun w e => hb (Finset.mem_image.mpr ⟨w, Finset.mem_univ _, e⟩)

/-! ## The arguments and the table at the boundaries -/

/-- x is read by the second launch only, through an input window. -/
theorem B2_x (c : Dev nD) : B2 m c (Proc.devRef .tc main_arg0) = m ((c : Thread nD τ).loc main_arg0) :=
  calc B2 m c (Proc.devRef .tc main_arg0)
    _ = B1 m c (Proc.devRef .tc main_arg0) := (B2_arr m c 0).trans (((datX (C1 m) c).arrAt_in 0 rfl _).trans (datX_A (C1 m) c 0))
    _ = B0 m c (Proc.devRef .tc main_arg0) := B1_of_ne m c main_arg0 (by decide)
    _ = m ((c : Thread nD τ).loc main_arg0) := rfl
/-- U0, U1, U2 are read by the first launch only, through input windows. -/
theorem B2_u0 (c : Dev nD) : B2 m c (Proc.devRef .tc main_arg1) = m ((c : Thread nD τ).loc main_arg1) :=
  calc B2 m c (Proc.devRef .tc main_arg1)
    _ = B1 m c (Proc.devRef .tc main_arg1) := B2_of_ne m c main_arg1 (by decide)
    _ = B0 m c (Proc.devRef .tc main_arg1) := (B1_arr m c 0).trans (((datW (C0 m) c).arrAt_in 0 rfl _).trans (datW_A (C0 m) c 0))
    _ = m ((c : Thread nD τ).loc main_arg1) := rfl
theorem B2_u1 (c : Dev nD) : B2 m c (Proc.devRef .tc main_arg2) = m ((c : Thread nD τ).loc main_arg2) :=
  calc B2 m c (Proc.devRef .tc main_arg2)
    _ = B1 m c (Proc.devRef .tc main_arg2) := B2_of_ne m c main_arg2 (by decide)
    _ = B0 m c (Proc.devRef .tc main_arg2) := (B1_arr m c 1).trans (((datW (C0 m) c).arrAt_in 1 rfl _).trans (datW_A (C0 m) c 1))
    _ = m ((c : Thread nD τ).loc main_arg2) := rfl
theorem B2_u2 (c : Dev nD) : B2 m c (Proc.devRef .tc main_arg3) = m ((c : Thread nD τ).loc main_arg3) :=
  calc B2 m c (Proc.devRef .tc main_arg3)
    _ = B1 m c (Proc.devRef .tc main_arg3) := B2_of_ne m c main_arg3 (by decide)
    _ = B0 m c (Proc.devRef .tc main_arg3) := (B1_arr m c 2).trans (((datW (C0 m) c).arrAt_in 2 rfl _).trans (datW_A (C0 m) c 2))
    _ = m ((c : Thread nD τ).loc main_arg3) := rfl
/-- The result's array ends at what the second launch's write-backs leave. -/
theorem B2_out (c : Dev nD) : B2 m c (Proc.devRef .tc main_v1) = (datX (C1 m) c).arrAt 2 cfg1.N := B2_arr m c 2
/-- The second launch finds x as launched and the table as the first launch left it. -/
theorem C1_x (c : Dev nD) : C1 m c main_arg0 = m ((c : Thread nD τ).loc main_arg0) := B1_of_ne m c main_arg0 (by decide)
theorem C1_table (c : Dev nD) : C1 m c main_v0 = (datW (C0 m) c).arrAt 3 cfg0.N := B1_arr m c 3

/-! ## The proof data of both launches, and what rides along -/

abbrev adm : (p : Fin 2) → (pcfgs (F := F) p).Adm := fun p => (cfgs p).toPCfg_adm
/-- Both launches' proof data, each at the contents its launch is entered from. -/
def pdats : (p : Fin 2) → (c : Dev nD) → Dat τ (Elt F) Unit ℕ (UR sig nD τ) ℕ (Pipeline.pin (pcfgs (F := F)) adm p) c
  | ⟨0, _⟩ => fun c => datW (C0 m) c
  | ⟨1, _⟩ => fun c => datX (C1 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B2 m c) ∗ ∃ r, prngReg c r)

/-! ## The launches as segments -/

set_option backward.isDefEq.respectTransparency.types false in
/-- The first launch: entered from the launch memory, left with W's array filled in. -/
def segW : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationW (C0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C0 m c) (C1 m c) ((pdats m 0 c).arrAt · cfg0.N) (exitW m c) (keepW m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from what the first left, left with the result's array filled in; its invariant takes
    the generator register and the scoped buffers in and gives them back, the accumulator's contents forgotten. -/
def segX : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationX (C1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enterX (C1 m) c)
    unfold Pipeline.ΦA
    iintro ⟨Hp, -, Hr⟩
    isplitl [Hr]; · iexact Hr
    iexact Hp
  hout c := by
    rw [Pipeline.ownSems0_none]
    refine (leaveX (C1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C1 m c) (C2 m c) ((pdats m 1 c).arrAt · cfg1.N) (exitX m c) (keepX m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (segW m), .region (segX m) ]
theorem main_is_segs (c : Dev nD) : main (F := F) c = Pipeline.Seg.run (segs m) := (main_chain c).trans (by chain_rfl)

set_option backward.isDefEq.respectTransparency.types false in
/-- Every weakly fair execution of @main terminates, and every final memory holds the result's array at what the
    second launch's write-backs leave and each argument as launched. -/
theorem run_all : θ_run defs (onTc (τ := τ) (main (F := F))) ⟨m, fun _ => 0, ρ⟩ (fun r => ∀ c : Dev nD,
      r.2.mem ((c.tc : Thread nD τ).loc main_v1) = (datX (C1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c =>
      ⟨(h c _ (mem_uc main_v1 (by decide))).trans (B2_out m c),
       (h c _ (mem_uc main_arg0 (by decide))).trans (B2_x m c),
       (h c _ (mem_uc main_arg1 (by decide))).trans (B2_u0 m c),
       (h c _ (mem_uc main_arg2 (by decide))).trans (B2_u1 m c),
       (h c _ (mem_uc main_arg3 (by decide))).trans (B2_u2 m c)⟩)

end Cert.Kernel.Frm

end
-- ==== Proof.FrameW.lean ====
/-
  The first launch: the Khatri-Rao table W.  Its grid has four points; point t sees all of U0 and U1 (both
  staged once, at the first point), rows 8t .. 8t+7 of U2, and writes rows 8192 t .. 8192 t + 8191 of W.
  Everything here is stated at a parameter V, the contents of the core's buffers when the launch is entered,
  and for any float instance F: what each window's staging buffer holds when the body runs, the body's run,
  and the obligation the pipeline asks of the body at every point.
-/
import proofs.«155811_j69466801045558_1_alg».proof.Proof.Gen.KernelIdeal.Launch
import proofs.«155811_j69466801045558_1_alg».proof.Proof.Gen.KernelIdeal.Skeleton
import proofs.«155811_j69466801045558_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, cut out of the window's array as the launch finds it. -/
def blkW (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds the input's block at every point, whether the point fetched it or not
    (an unfetched window's block index has not moved). One statement per input window. -/
theorem inW0_of {c : Dev nD} (dat : Dat τ (Elt F) Unit ℕ (UR sig nD τ) ℕ cfg0 c) (hA : dat.A 0 = V c (Pipeline.arrRef spec0 0))
    (hafter : ∀ t, dat.after 0 t = blkW V c 0 t) (t : Fin cfg0.N) (d) : dat.before 0 t d = blkW V c 0 t :=
  (dat.before_in_eq_fetched 0 rfl (fun _ => rfl) (fun _ _ _ => rfl) (fun t => by rw [hafter]; unfold Dat.blockOf blkW; rw [hA]; try rfl) t d).trans
    (by unfold Dat.fetched Dat.blockOf blkW; rw [hA]; try rfl)
theorem inW1_of {c : Dev nD} (dat : Dat τ (Elt F) Unit ℕ (UR sig nD τ) ℕ cfg0 c) (hA : dat.A 1 = V c (Pipeline.arrRef spec0 1))
    (hafter : ∀ t, dat.after 1 t = blkW V c 1 t) (t : Fin cfg0.N) (d) : dat.before 1 t d = blkW V c 1 t :=
  (dat.before_in_eq_fetched 1 rfl (fun _ => rfl) (fun _ _ _ => rfl) (fun t => by rw [hafter]; unfold Dat.blockOf blkW; rw [hA]; try rfl) t d).trans
    (by unfold Dat.fetched Dat.blockOf blkW; rw [hA]; try rfl)
theorem inW2_of {c : Dev nD} (dat : Dat τ (Elt F) Unit ℕ (UR sig nD τ) ℕ cfg0 c) (hA : dat.A 2 = V c (Pipeline.arrRef spec0 2))
    (hafter : ∀ t, dat.after 2 t = blkW V c 2 t) (t : Fin cfg0.N) (d) : dat.before 2 t d = blkW V c 2 t :=
  (dat.before_in_eq_fetched 2 rfl (fun _ => rfl) (fun _ _ _ => rfl) (fun t => by rw [hafter]; unfold Dat.blockOf blkW; rw [hA]; try rfl) t d).trans
    (by unfold Dat.fetched Dat.blockOf blkW; rw [hA]; try rfl)

/-- The whole-buffer rectangles the body reads and writes through. -/
abbrev rU : Rect S32x256 := Rect.unit (s := S32x256) ![0, 0] S32x256.size inb_S32x256_S32x256_0_0
abbrev rG : Rect S8x256 := Rect.unit (s := S8x256) ![0, 0] S8x256.size inb_S8x256_S8x256_0_0
abbrev rW : Rect S8192x256 := Rect.unit (s := S8192x256) ![0, 0] S8192x256.size inb_S8192x256_S8192x256_0_0

/-- What the body leaves in W's staging buffer: its one store, of the product of the three loaded blocks. -/
def wBlock (u0 u1 : Vec F S32x256 .f32) (u2 : Vec F S8x256 .f32) : Vec F S8192x256 .bf16 :=
  View.canon [⟨rW, k0_pay1 (View.ld u0 rU) (View.ld u1 rU) (View.ld u2 rG)⟩]

/-- The one store fills the buffer. -/
theorem wBlock_cover (p0 : Vec F S8192x256 .bf16) (y : S8192x256.Idx) :
    ∃ pc ∈ ([⟨rW, p0⟩] : List (View.Piece (Elt F) S8192x256 .bf16)), y ∈ pc.1.set :=
  View.cover_of_tiled [⟨rW, p0⟩] S8192x256.size (by rfl) y

set_option maxHeartbeats 1000000 in
/-- The body on whole staging buffers: the three inputs are read and left as they were, W's buffer ends at
    `wBlock` of them whatever it held. -/
theorem run_buildW (c : Dev nD) (E : Set ℕ) (i : grid0.Coords)
    (a1 : Memref sig .tc .vmem S32x256 .f32) (h1 : a1.IsWhole) (a2 : Memref sig .tc .vmem S32x256 .f32) (h2 : a2.IsWhole)
    (a3 : Memref sig .tc .vmem S8x256 .f32) (h3 : a3.IsWhole) (a4 : Memref sig .tc .vmem S8192x256 .bf16) (h4 : a4.IsWhole)
    (u0 u1 : Vec F S32x256 .f32) (u2 : Vec F S8x256 .f32) (K : PUnit → sProp 𝕄) :
    iprop(owns (c : Thread nD τ) a1 fullShare u0 ∗ owns (c : Thread nD τ) a2 fullShare u1 ∗ owns (c : Thread nD τ) a3 fullShare u2
        ∗ (∃ d, owns (c : Thread nD τ) a4 fullShare d)
        ∗ (iprop(owns (c : Thread nD τ) a1 fullShare u0 ∗ owns (c : Thread nD τ) a2 fullShare u1 ∗ owns (c : Thread nD τ) a3 fullShare u2
            ∗ owns (c : Thread nD τ) a4 fullShare (wBlock u0 u1 u2)) -∗ K ⟨⟩))
      ⊢ wp frame (wpE (defs₀ (F := F)) Variants.none c none) E (cc0__build_w_kernel i a1 h1 a2 h2 a3 h3 a4 h4) K := by
  simp only [cc0__build_w_kernel_eq_skeleton]; unfold cc0__build_w_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (wBlock_cover _)

/-- The first launch's proof data on core c: the arrays as found; after the body each input's buffer at its
    block, W's at the product of the point's blocks; the invariant is the untouched rest (the other launch's
    buffers and the generator register); nothing owed. -/
def datW (c : Dev nD) : Dat τ (Elt F) Unit ℕ (UR sig nD τ) ℕ cfg0 c where
  A w := V c (Pipeline.arrRef spec0 w)
  after w t := match w with
    | ⟨0, _⟩ => blkW V c 0 t
    | ⟨1, _⟩ => blkW V c 1 t
    | ⟨2, _⟩ => blkW V c 2 t
    | ⟨3, _⟩ => wBlock (blkW V c 0 t) (blkW V c 1 t) (blkW V c 2 t)
  Φ _ := Pipeline.ΦA spec0 c
  q _ := fullShare
  owed _ := 0

theorem datW_A (c : Dev nD) (w : Fin cfg0.W) : (datW V c).A w = V c (Pipeline.arrRef spec0 w) := by
  dsimp only [datW]
theorem datW_after0 (c : Dev nD) (t : Fin cfg0.N) : (datW V c).after 0 t = blkW V c 0 t := by dsimp only [datW]
theorem datW_after1 (c : Dev nD) (t : Fin cfg0.N) : (datW V c).after 1 t = blkW V c 1 t := by dsimp only [datW]
theorem datW_after2 (c : Dev nD) (t : Fin cfg0.N) : (datW V c).after 2 t = blkW V c 2 t := by dsimp only [datW]
theorem datW_after3 (c : Dev nD) (t : Fin cfg0.N) :
    (datW V c).after 3 t = wBlock (blkW V c 0 t) (blkW V c 1 t) (blkW V c 2 t) := by dsimp only [datW]

theorem datW_before0 (c : Dev nD) (t : Fin cfg0.N) (d) : (datW V c).before 0 t d = blkW V c 0 t :=
  inW0_of V (datW V c) (datW_A V c 0) (datW_after0 V c) t d
theorem datW_before1 (c : Dev nD) (t : Fin cfg0.N) (d) : (datW V c).before 1 t d = blkW V c 1 t :=
  inW1_of V (datW V c) (datW_A V c 1) (datW_after1 V c) t d
theorem datW_before2 (c : Dev nD) (t : Fin cfg0.N) (d) : (datW V c).before 2 t d = blkW V c 2 t :=
  inW2_of V (datW V c) (datW_A V c 2) (datW_after2 V c) t d

/-- What the pipeline hands the body at point t, window by window, -/
def preW (c : Dev nD) (t : Fin cfg0.N) : sProp 𝕄 :=
  iprop((datW V c).Φ t.castSucc ∗ (datW V c).owesAt () t.castSucc
    ∗ (∃ d, owns (c : Thread nD τ) (st0_0 t) fullShare ((datW V c).before 0 t d))
    ∗ (∃ d, owns (c : Thread nD τ) (st0_1 t) fullShare ((datW V c).before 1 t d))
    ∗ (∃ d, owns (c : Thread nD τ) (st0_2 t) fullShare ((datW V c).before 2 t d))
    ∗ (∃ d, owns (c : Thread nD τ) (st0_3 t) fullShare ((datW V c).before 3 t d)))

/-- and what it takes back. -/
def postW (c : Dev nD) (t : Fin cfg0.N) : sProp 𝕄 :=
  iprop((datW V c).Φ t.succ ∗ (datW V c).owesAt () t.succ
    ∗ owns (c : Thread nD τ) (st0_0 t) fullShare ((datW V c).after 0 t)
    ∗ owns (c : Thread nD τ) (st0_1 t) fullShare ((datW V c).after 1 t)
    ∗ owns (c : Thread nD τ) (st0_2 t) fullShare ((datW V c).after 2 t)
    ∗ owns (c : Thread nD τ) (st0_3 t) fullShare ((datW V c).after 3 t))

/-- The body at any point: the inputs' buffers hold their blocks, so the run applies; the invariant and the
    core's dues pass through unread. -/
theorem bodyW (c : Dev nD) (t : Fin cfg0.N) :
    preW V c t ⊢ wp frame (wpE (defs₀ (F := F)) Variants.none c none) Set.univ (bodyAt0 t) (fun _ => postW V c t) := by
  unfold preW postW bodyAt0
  simp only [datW_before0, datW_before1, datW_before2]
  rw [show (datW V c).Φ t.succ = (datW V c).Φ t.castSucc from rfl,
    show (datW V c).owesAt () t.succ = (datW V c).owesAt () t.castSucc from rfl,
    datW_after0, datW_after1, datW_after2, datW_after3]
  iintro ⟨HΦ, Ho, ⟨%d0, H0⟩, ⟨%d1, H1⟩, ⟨%d2, H2⟩, ⟨%d3, H3⟩⟩
  iapply (run_buildW c Set.univ _ _ _ _ _ _ _ _ _ (blkW V c 0 t) (blkW V c 1 t) (blkW V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's obligation on the body, at every point. -/
theorem obligationW (c : Dev nD) : BodyObligation (datW (F := F) V c) (defs₀ (F := F)) Variants.none () Set.univ := fun t => by
  rw [bigSep_W0, bigSep_W0]
  exact bodyW V c t

end Cert.KernelIdeal.Frm

end
-- ==== Proof.FrameX.lean ====
/-
  The second launch: out = x · W, accumulated over sixteen column blocks.  Its grid is 2 × 16; point (i, k)
  sees rows 1024 i .. of x at columns 2048 k .., rows 2048 k .. of W, and adds their product into an
  accumulator the kernel keeps in a scratch buffer from one point to the next: zeroed when k = 0, copied to
  the output block when k = 15 (the only points that store into the output, and the only points whose block
  is written back).  Stated at a parameter V (the buffers' contents when the launch is entered) and for any
  float instance F: the three shapes of a point (first, middle, last of a row of sixteen), what the
  accumulator holds after each point, the invariant that carries it, and the pipeline's obligation on the body.
-/
import proofs.«155811_j69466801045558_1_alg».proof.Proof.Gen.KernelIdeal.Launch
import proofs.«155811_j69466801045558_1_alg».proof.Proof.Gen.KernelIdeal.Skeleton
import proofs.«155811_j69466801045558_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w, cut out of the window's array as the launch finds it. -/
def blkX (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two inputs' blocks at their literal types. -/
abbrev xBlk (c : Dev nD) (t : Fin cfg1.N) : Vec F S1024x2048 .f32 := blkX V c 0 t
abbrev wBlk (c : Dev nD) (t : Fin cfg1.N) : Vec F S2048x256 .bf16 := blkX V c 1 t

/-- An input's staging buffer holds the input's block at every point. -/
theorem inX0_of {c : Dev nD} (dat : Dat τ (Elt F) Unit ℕ (UR sig nD τ) ℕ cfg1 c) (hA : dat.A 0 = V c (Pipeline.arrRef spec1 0))
    (hafter : ∀ t, dat.after 0 t = blkX V c 0 t) (t : Fin cfg1.N) (d) : dat.before 0 t d = blkX V c 0 t :=
  (dat.before_in_eq_fetched 0 rfl (fun _ => rfl) (fun _ _ _ => rfl) (fun t => by rw [hafter]; unfold Dat.blockOf blkX; rw [hA]; try rfl) t d).trans
    (by unfold Dat.fetched Dat.blockOf blkX; rw [hA]; try rfl)
theorem inX1_of {c : Dev nD} (dat : Dat τ (Elt F) Unit ℕ (UR sig nD τ) ℕ cfg1 c) (hA : dat.A 1 = V c (Pipeline.arrRef spec1 1))
    (hafter : ∀ t, dat.after 1 t = blkX V c 1 t) (t : Fin cfg1.N) (d) : dat.before 1 t d = blkX V c 1 t :=
  (dat.before_in_eq_fetched 1 rfl (fun _ => rfl) (fun _ _ _ => rfl) (fun t => by rw [hafter]; unfold Dat.blockOf blkX; rw [hA]; try rfl) t d).trans
    (by unfold Dat.fetched Dat.blockOf blkX; rw [hA]; try rfl)

/-! ## The shape of a point -/

/-- k = 0, as the body computes it, -/
abbrev firstK (i : grid1.Coords) : Prop := (Scalar.cmpi .ne (Scalar.extui (Scalar.cmpi .eq (BitVec.ofNat 32 (i 1).val) 0#32)) 0#32) = 1#1
/-- and k = 15. -/
abbrev lastK (i : grid1.Coords) : Prop := k1_cond2 i = 1#1

theorem firstK_iff : ∀ t : Fin cfg1.N, firstK (grid1.coords t) ↔ t.val % 16 = 0 :=
  (by decide +kernel : ∀ t : Fin grid1.N, firstK (grid1.coords t) ↔ t.val % 16 = 0)
theorem lastK_iff : ∀ t : Fin cfg1.N, lastK (grid1.coords t) ↔ t.val % 16 = 15 :=
  (by decide +kernel : ∀ t : Fin grid1.N, lastK (grid1.coords t) ↔ t.val % 16 = 15)

/-- The inputs are stored into nowhere; the output is stored into exactly where k = 15, and written back exactly there. -/
theorem live0 : ∀ t : Fin cfg1.N, cfg1.idle 0 (grid1.coords t) = false := by decide +kernel
theorem live1 : ∀ t : Fin cfg1.N, cfg1.idle 1 (grid1.coords t) = false := by decide +kernel
theorem idle2_of : ∀ t : Fin cfg1.N, ¬lastK (grid1.coords t) → cfg1.idle 2 (grid1.coords t) = true := by decide +kernel
theorem noFlush2_of : ∀ t : Fin cfg1.N, ¬lastK (grid1.coords t) → (cfg1.win 2).flush t = false := by decide +kernel
theorem live2_of : ∀ t : Fin cfg1.N, lastK (grid1.coords t) → cfg1.idle 2 (grid1.coords t) = false := by decide +kernel

/-! ## The body's runs -/

theorem hz : (![0, 0] : Fin 2 → Nat) = fun _ => 0 := funext fun a => by fin_cases a <;> rfl

/-- A store through the whole-buffer rectangle, last, covers the buffer whatever came before it. -/
theorem cover_whole {S : Shape} {e : EltTy} {off : Fin S.rank → Nat} (h : off = fun _ => 0) (inb : ∀ a, off a + S.size a ≤ S.size a)
    (w : S.Idx → Elt F e) (L : List (View.Piece (Elt F) S e)) (y : S.Idx) :
    ∃ p ∈ ((⟨Rect.unit off S.size inb, w⟩ : View.Piece (Elt F) S e) :: L), y ∈ p.1.set := by
  subst h
  exact ⟨_, List.mem_cons_self .., by show y ∈ (Rect.whole S).set; rw [Rect.set_whole]; exact Finset.mem_univ y⟩

/-- The scratch buffer the accumulator lives in. -/
abbrev scM : Memref sig .tc .vmem S1024x256 .f32 := Memref.whole cc1_scratch0

set_option maxHeartbeats 1000000 in
/-- A point with k = 0 (and k ≠ 15): the accumulator, whatever it held, is zeroed and then takes the product;
    the output's buffer is not touched. -/
theorem run_first (c : Dev nD) (E : Set ℕ) (i : grid1.Coords) (hc0 : firstK i) (hc1 : ¬lastK i)
    (a2 : Memref sig .tc .vmem S1024x2048 .f32) (h2 : a2.IsWhole) (a3 : Memref sig .tc .vmem S2048x256 .bf16) (h3 : a3.IsWhole)
    (a4 : Memref sig .tc .vmem S1024x256 .f32) (h4 : a4.IsWhole) (a5 : Memref sig .tc .vmem S1024x256 .f32) (h5 : a5.IsWhole)
    (x : Vec F S1024x2048 .f32) (w : Vec F S2048x256 .bf16) (o : Vec F S1024x256 .f32) (K : PUnit → sProp 𝕄) :
    iprop(owns (c : Thread nD τ) a2 fullShare x ∗ owns (c : Thread nD τ) a3 fullShare w ∗ owns (c : Thread nD τ) a4 fullShare o
        ∗ (∃ d, owns (c : Thread nD τ) a5 fullShare d)
        ∗ (iprop(owns (c : Thread nD τ) a2 fullShare x ∗ owns (c : Thread nD τ) a3 fullShare w ∗ owns (c : Thread nD τ) a4 fullShare o
            ∗ owns (c : Thread nD τ) a5 fullShare (k1_pay2 x w k1_pay1)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  rw [View.read_writes_eq_canon _ _ _ (cover_whole hz _ _ _), View.canon_cons_unit_zero (S := S1024x256) hz,
    View.readCov_unit_zero (S := S1024x256) _ hz]
  simp only [View.readAt_eq_ld, View.ld_unit_zero (S := S1024x2048) hz, View.ld_unit_zero (S := S2048x256) hz]

set_option maxHeartbeats 1000000 in
/-- A point with 0 < k < 15: the accumulator takes the product on top of what it held; the output's buffer is
    not touched. -/
theorem run_mid (c : Dev nD) (E : Set ℕ) (i : grid1.Coords) (hc0 : ¬firstK i) (hc1 : ¬lastK i)
    (a2 : Memref sig .tc .vmem S1024x2048 .f32) (h2 : a2.IsWhole) (a3 : Memref sig .tc .vmem S2048x256 .bf16) (h3 : a3.IsWhole)
    (a4 : Memref sig .tc .vmem S1024x256 .f32) (h4 : a4.IsWhole) (a5 : Memref sig .tc .vmem S1024x256 .f32) (h5 : a5.IsWhole)
    (x : Vec F S1024x2048 .f32) (w : Vec F S2048x256 .bf16) (o prev : Vec F S1024x256 .f32) (K : PUnit → sProp 𝕄) :
    iprop(owns (c : Thread nD τ) a2 fullShare x ∗ owns (c : Thread nD τ) a3 fullShare w ∗ owns (c : Thread nD τ) a4 fullShare o
        ∗ owns (c : Thread nD τ) a5 fullShare prev
        ∗ (iprop(owns (c : Thread nD τ) a2 fullShare x ∗ owns (c : Thread nD τ) a3 fullShare w ∗ owns (c : Thread nD τ) a4 fullShare o
            ∗ owns (c : Thread nD τ) a5 fullShare (k1_pay2 x w prev)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (cover_whole hz _ _ _), View.canon_unit_zero hz]
  simp only [View.readAt_eq_ld, View.ld_unit_zero (S := S1024x2048) hz, View.ld_unit_zero (S := S2048x256) hz,
    View.ld_unit_zero (S := S1024x256) hz]

set_option maxHeartbeats 1000000 in
/-- A point with k = 15 (and k ≠ 0): the accumulator takes the last product, and the output's buffer, whatever it
    held, takes the accumulator. -/
theorem run_last (c : Dev nD) (E : Set ℕ) (i : grid1.Coords) (hc0 : ¬firstK i) (hc1 : lastK i)
    (a2 : Memref sig .tc .vmem S1024x2048 .f32) (h2 : a2.IsWhole) (a3 : Memref sig .tc .vmem S2048x256 .bf16) (h3 : a3.IsWhole)
    (a4 : Memref sig .tc .vmem S1024x256 .f32) (h4 : a4.IsWhole) (a5 : Memref sig .tc .vmem S1024x256 .f32) (h5 : a5.IsWhole)
    (x : Vec F S1024x2048 .f32) (w : Vec F S2048x256 .bf16) (prev : Vec F S1024x256 .f32) (K : PUnit → sProp 𝕄) :
    iprop(owns (c : Thread nD τ) a2 fullShare x ∗ owns (c : Thread nD τ) a3 fullShare w ∗ (∃ d, owns (c : Thread nD τ) a4 fullShare d)
        ∗ owns (c : Thread nD τ) a5 fullShare prev
        ∗ (iprop(owns (c : Thread nD τ) a2 fullShare x ∗ owns (c : Thread nD τ) a3 fullShare w
            ∗ owns (c : Thread nD τ) a4 fullShare (k1_pay2 x w prev)
            ∗ owns (c : Thread nD τ) a5 fullShare (k1_pay2 x w prev)) -∗ K ⟨⟩))
      ⊢ wp frame (wpE (defs₀ (F := F)) Variants.none c none) E (cc1__matmul_kernel i a2 h2 a3 h3 a4 h4 a5 h5) K := by
  simp only [cc1__matmul_kernel_eq_skeleton]; unfold cc1__matmul_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover_whole hz _ _ _), View.canon_unit_zero hz,
      View.readCov_unit_zero (S := S1024x256) _ hz]
    simp only [View.readAt_eq_ld, View.ld_unit_zero (S := S1024x2048) hz, View.ld_unit_zero (S := S2048x256) hz,
      View.ld_unit_zero (S := S1024x256) hz]
  iexists _; isplitr
  swap; · iexact H3
  ipureintro
  sl_unfold_words
  rw [View.read_writes_eq_canon _ _ _ (cover_whole hz _ _ _), View.canon_unit_zero hz]
  simp only [View.readAt_eq_ld, View.ld_unit_zero (S := S1024x2048) hz, View.ld_unit_zero (S := S2048x256) hz,
    View.ld_unit_zero (S := S1024x256) hz]

end Cert.KernelIdeal.Frm

end
-- ==== Proof.FrameXData.lean ====
/-
  The second launch, continued: what the accumulator holds after every point, the invariant that carries it from
  one point to the next, the launch's proof data, and the pipeline's obligation on the body at every point.
  The accumulator after point n is the block product at n on top of zero when n starts a row of sixteen, and on
  top of the accumulator after n - 1 otherwise.
-/
import proofs.«155811_j69466801045558_1_alg».proof.Proof.Gen.KernelIdeal.Launch
import proofs.«155811_j69466801045558_1_alg».proof.Proof.Gen.KernelIdeal.Skeleton
import proofs.«155811_j69466801045558_1_alg».proof.Proof.Gen.KernelIdeal.Points
import proofs.«155811_j69466801045558_1_alg».proof.Proof.FrameX
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the scratch buffer holds after the body at position n. -/
def accAt (c : Dev nD) : (n : ℕ) → n < cfg1.N → Vec F S1024x256 .f32
  | 0, hn => k1_pay2 (xBlk V c ⟨0, hn⟩) (wBlk V c ⟨0, hn⟩) k1_pay1
  | n + 1, hn =>
    if (n + 1) % 16 = 0 then k1_pay2 (xBlk V c ⟨n + 1, hn⟩) (wBlk V c ⟨n + 1, hn⟩) k1_pay1
    else k1_pay2 (xBlk V c ⟨n + 1, hn⟩) (wBlk V c ⟨n + 1, hn⟩) (accAt c n (Nat.lt_of_succ_lt hn))

theorem accAt_first (c : Dev nD) (t : Fin cfg1.N) (h : t.val % 16 = 0) :
    accAt V c t.val t.isLt = k1_pay2 (xBlk V c t) (wBlk V c t) k1_pay1 := by
  obtain ⟨n, hn⟩ := t
  cases n with
  | zero => rfl
  | succ n => exact if_pos h

theorem accAt_next (c : Dev nD) (t : Fin cfg1.N) (h : ¬t.val % 16 = 0) :
    accAt V c t.val t.isLt = k1_pay2 (xBlk V c t) (wBlk V c t) (accAt V c (t.val - 1) (Nat.lt_of_le_of_lt (Nat.sub_le _ _) t.isLt)) := by
  obtain ⟨n, hn⟩ := t
  cases n with
  | zero => exact absurd (Nat.zero_mod _) h
  | succ n => exact if_neg h

/-- The launch's invariant opened: the first launch's six staging buffers at anything, the scratch buffer as S says,
    the generator register at some state. -/
def PhiOpen (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

theorem PhiOpen_mono (c : Dev nD) {S S' : sProp 𝕄} (h : S ⊢ S') : PhiOpen (F := F) c S ⊢ PhiOpen (F := F) c S' := by
  unfold PhiOpen
  iintro ⟨⟨Ha, Hb, Hc, Hd, He, Hf, HS⟩, Hg⟩
  isplitl [Ha Hb Hc Hd He Hf HS]
  · isplitl [Ha]; · iexact Ha
    isplitl [Hb]; · iexact Hb
    isplitl [Hc]; · iexact Hc
    isplitl [Hd]; · iexact Hd
    isplitl [He]; · iexact He
    isplitl [Hf]; · iexact Hf
    iapply h; iexact HS
  iexact Hg

/-- The launch's own invariant is the opened one with the scratch buffer at anything. -/
theorem PhiA_split (c : Dev nD) :
    (Pipeline.ΦA spec1 c : sProp 𝕄) = PhiOpen c iprop(∃ d, owns (c : Thread nD τ) scM fullShare d) := by
  unfold Pipeline.ΦA PhiOpen; rw [scopedRest1_eq]; simp only [scM, owns_whole]; try rfl

/-- The invariant before position n: before the first point, the launch's own; afterwards the opened one with the
    scratch buffer at what the point before left in it. -/
def PhiX (c : Dev nD) : (n : ℕ) → n ≤ cfg1.N → sProp 𝕄
  | 0, _ => Pipeline.ΦA spec1 c
  | n + 1, hn => PhiOpen c (owns (c : Thread nD τ) scM fullShare (accAt V c n hn))

theorem PhiX_zero (c : Dev nD) (n : ℕ) (h : n ≤ cfg1.N) (hz : n = 0) : PhiX V c n h = Pipeline.ΦA spec1 c := by
  subst hz; rfl

theorem PhiX_succ (c : Dev nD) (n : ℕ) (hn : n < cfg1.N) :
    PhiX V c (n + 1) hn = PhiOpen c (owns (c : Thread nD τ) scM fullShare (accAt V c n hn)) := rfl

theorem PhiX_pos (c : Dev nD) (n : ℕ) (h : n ≤ cfg1.N) (hz : n ≠ 0) :
    PhiX V c n h = PhiOpen c (owns (c : Thread nD τ) scM fullShare (accAt V c (n - 1) (by omega))) := by
  cases n with
  | zero => exact absurd rfl hz
  | succ n => rfl

/-- Before any point the scratch buffer is there at some contents. -/
theorem PhiX_forget (c : Dev nD) (n : ℕ) (h : n ≤ cfg1.N) :
    PhiX V c n h ⊢ PhiOpen c iprop(∃ d, owns (c : Thread nD τ) scM fullShare d) := by
  by_cases hz : n = 0
  · rw [PhiX_zero V c n h hz, PhiA_split]
  · rw [PhiX_pos V c n h hz]
    exact PhiOpen_mono c (by iintro H; iexists _; iexact H)

/-- The second launch's proof data on core c: the arrays as found; after the body each input's buffer at its block
    and the output's at the accumulator (what a point with k = 15 stores there; at the other points the buffer is
    handed back untouched and this entry is not consulted); the invariant carries the accumulator; nothing owed. -/
def datX (c : Dev nD) : Dat τ (Elt F) Unit ℕ (UR sig nD τ) ℕ cfg1 c where
  A w := V c (Pipeline.arrRef spec1 w)
  after w t := match w with
    | ⟨0, _⟩ => blkX V c 0 t
    | ⟨1, _⟩ => blkX V c 1 t
    | ⟨2, _⟩ => accAt V c t.val t.isLt
  Φ t := PhiX V c t.val (Nat.le_of_lt_succ t.isLt)
  q _ := fullShare
  owed _ := 0

theorem datX_A (c : Dev nD) (w : Fin cfg1.W) : (datX V c).A w = V c (Pipeline.arrRef spec1 w) := by
  dsimp only [datX]
theorem datX_Phi_start (c : Dev nD) (t : Fin cfg1.N) :
    (datX V c).Φ t.castSucc = PhiX V c t.val (Nat.le_of_lt t.isLt) := by
  dsimp only [datX]; simp only [Fin.coe_castSucc]
theorem datX_after0 (c : Dev nD) (t : Fin cfg1.N) : (datX V c).after 0 t = blkX V c 0 t := by dsimp only [datX]
theorem datX_after1 (c : Dev nD) (t : Fin cfg1.N) : (datX V c).after 1 t = blkX V c 1 t := by dsimp only [datX]
theorem datX_after2 (c : Dev nD) (t : Fin cfg1.N) : (datX V c).after 2 t = accAt V c t.val t.isLt := by dsimp only [datX]
theorem datX_before0 (c : Dev nD) (t : Fin cfg1.N) (d) : (datX V c).before 0 t d = blkX V c 0 t :=
  inX0_of V (datX V c) (datX_A V c 0) (datX_after0 V c) t d
theorem datX_before1 (c : Dev nD) (t : Fin cfg1.N) (d) : (datX V c).before 1 t d = blkX V c 1 t :=
  inX1_of V (datX V c) (datX_A V c 1) (datX_after1 V c) t d

/-- What the pipeline hands the body at point t, -/
def preX (c : Dev nD) (t : Fin cfg1.N) : sProp 𝕄 :=
  iprop((datX V c).Φ t.castSucc ∗ (datX V c).owesAt () t.castSucc
    ∗ (∃ d, owns (c : Thread nD τ) (st1_0 t) fullShare ((datX V c).before 0 t d))
    ∗ (∃ d, owns (c : Thread nD τ) (st1_1 t) fullShare ((datX V c).before 1 t d))
    ∗ (∃ d, owns (c : Thread nD τ) (st1_2 t) fullShare ((datX V c).before 2 t d)))

/-- and what it takes back. -/
def postX (c : Dev nD) (t : Fin cfg1.N) : sProp 𝕄 :=
  iprop((datX V c).Φ t.succ ∗ (datX V c).owesAt () t.succ
    ∗ (datX V c).leavesExact 0 t
    ∗ (datX V c).leavesExact 1 t
    ∗ (datX V c).leavesExact 2 t)

set_option maxHeartbeats 4000000 in
/-- The body at any point, by the point's place in its row of sixteen: the inputs' buffers hold their blocks; the
    invariant hands over the scratch buffer at what the point before left (at anything, where a row starts) and takes
    it back at this point's accumulator; the output's buffer comes back untouched except at a row's last point. -/
theorem bodyX (c : Dev nD) (t : Fin cfg1.N) :
    preX V c t ⊢ wp frame (wpE (defs₀ (F := F)) Variants.none c none) Set.univ (bodyAt1 t) (fun _ => postX V c t) := by
  unfold preX postX bodyAt1
  simp only [datX_before0, datX_before1]
  rw [show (datX V c).owesAt () t.succ = (datX V c).owesAt () t.castSucc from rfl]
  rw [show (datX V c).Φ t.succ = PhiX V c (t.val + 1) t.isLt from rfl, PhiX_succ]
  rw [show (datX V c).leavesExact 0 t = owns (c : Thread nD τ) (st1_0 t) fullShare ((datX V c).after 0 t) from by
    unfold Dat.leavesExact; rw [live0 t], datX_after0]
  rw [show (datX V c).leavesExact 1 t = owns (c : Thread nD τ) (st1_1 t) fullShare ((datX V c).after 1 t) from by
    unfold Dat.leavesExact; rw [live1 t], datX_after1]
  have hN : t.val < 32 := lt_of_lt_of_eq t.isLt (show cfg1.N = 32 from N_1)
  by_cases h0 : t.val % 16 = 0
  · have hl : ¬lastK (grid1.coords t) := fun h => by have := (lastK_iff t).mp h; omega
    have hf : firstK (grid1.coords t) := (firstK_iff t).mpr h0
    rw [Dat.leavesExact_idle (datX V c) 2 t (idle2_of t hl) (noFlush2_of t hl)]
    rw [accAt_first V c t h0, datX_Phi_start V c t]
    refine (sep_mono (PhiX_forget V c _ _) .rfl).trans ?_
    unfold PhiOpen
    iintro ⟨⟨⟨Ha, Hb, Hc, Hd, He, Hf, HS⟩, Hg⟩, Ho, ⟨%d0, H0⟩, ⟨%d1, H1⟩, ⟨%d2, H2⟩⟩
    iapply (run_first c Set.univ (grid1.coords t) hf hl _ _ _ _ _ _ _ _ (xBlk V c t) (wBlk V c t) _ _)
    isplitl [H0]; · iexact H0
    isplitl [H1]; · iexact H1
    isplitl [H2]; · iexact H2
    isplitl [HS]; · iexact HS
    iintro ⟨H0, H1, H2, HS⟩
    isplitl [Ha Hb Hc Hd He Hf HS Hg]
    · isplitl [Ha Hb Hc Hd He Hf HS]
      · isplitl [Ha]; · iexact Ha
        isplitl [Hb]; · iexact Hb
        isplitl [Hc]; · iexact Hc
        isplitl [Hd]; · iexact Hd
        isplitl [He]; · iexact He
        isplitl [Hf]; · iexact Hf
        iexact HS
      iexact Hg
    isplitl [Ho]; · iexact Ho
    isplitl [H0]; · iexact H0
    isplitl [H1]; · iexact H1
    iexists d2; iexact H2
  · have hf : ¬firstK (grid1.coords t) := fun h => h0 ((firstK_iff t).mp h)
    have hz : t.val ≠ 0 := fun e => h0 (by rw [e])
    rw [accAt_next V c t h0, datX_Phi_start V c t, PhiX_pos V c _ _ hz]
    unfold PhiOpen
    by_cases h1 : t.val % 16 = 15
    · have hl : lastK (grid1.coords t) := (lastK_iff t).mpr h1
      rw [show (datX V c).leavesExact 2 t = owns (c : Thread nD τ) (st1_2 t) fullShare ((datX V c).after 2 t) from by
        unfold Dat.leavesExact; rw [live2_of t hl], datX_after2, accAt_next V c t h0]
      iintro ⟨⟨⟨Ha, Hb, Hc, Hd, He, Hf, HS⟩, Hg⟩, Ho, ⟨%d0, H0⟩, ⟨%d1, H1⟩, ⟨%d2, H2⟩⟩
      iapply (run_last c Set.univ (grid1.coords t) hf hl _ _ _ _ _ _ _ _ (xBlk V c t) (wBlk V c t) _ _)
      isplitl [H0]; · iexact H0
      isplitl [H1]; · iexact H1
      isplitl [H2]; · iexists _; iexact H2
      isplitl [HS]; · iexact HS
      iintro ⟨H0, H1, H2, HS⟩
      isplitl [Ha Hb Hc Hd He Hf HS Hg]
      · isplitl [Ha Hb Hc Hd He Hf HS]
        · isplitl [Ha]; · iexact Ha
          isplitl [Hb]; · iexact Hb
          isplitl [Hc]; · iexact Hc
          isplitl [Hd]; · iexact Hd
          isplitl [He]; · iexact He
          isplitl [Hf]; · iexact Hf
          iexact HS
        iexact Hg
      isplitl [Ho]; · iexact Ho
      isplitl [H0]; · iexact H0
      isplitl [H1]; · iexact H1
      iexact H2
    · have hl : ¬lastK (grid1.coords t) := fun h => h1 ((lastK_iff t).mp h)
      rw [Dat.leavesExact_idle (datX V c) 2 t (idle2_of t hl) (noFlush2_of t hl)]
      iintro ⟨⟨⟨Ha, Hb, Hc, Hd, He, Hf, HS⟩, Hg⟩, Ho, ⟨%d0, H0⟩, ⟨%d1, H1⟩, ⟨%d2, H2⟩⟩
      iapply (run_mid c Set.univ (grid1.coords t) hf hl _ _ _ _ _ _ _ _ (xBlk V c t) (wBlk V c t) _ _ _)
      isplitl [H0]; · iexact H0
      isplitl [H1]; · iexact H1
      isplitl [H2]; · iexact H2
      isplitl [HS]; · iexact HS
      iintro ⟨H0, H1, H2, HS⟩
      isplitl [Ha Hb Hc Hd He Hf HS Hg]
      · isplitl [Ha Hb Hc Hd He Hf HS]
        · isplitl [Ha]; · iexact Ha
          isplitl [Hb]; · iexact Hb
          isplitl [Hc]; · iexact Hc
          isplitl [Hd]; · iexact Hd
          isplitl [He]; · iexact He
          isplitl [Hf]; · iexact Hf
          iexact HS
        iexact Hg
      isplitl [Ho]; · iexact Ho
      isplitl [H0]; · iexact H0
      isplitl [H1]; · iexact H1
      iexists d2; iexact H2

/-- The pipeline's obligation on the body, at every point. -/
theorem obligationX (c : Dev nD) : BodyObligation (datX (F := F) V c) (defs₀ (F := F)) Variants.none () Set.univ := fun t => by
  rw [bigSep_W1, bigSep_W1]
  exact bodyX V c t

/-- What the launch hands the region is the invariant before the first point. -/
theorem enterX (c : Dev nD) : Pipeline.ΦA spec1 c ⊢ (datX V c).Φ 0 := by
  rw [show (datX V c).Φ 0 = PhiX V c 0 (Nat.zero_le _) from rfl, PhiX_zero V c 0 _ rfl]

/-- After the last point the invariant gives the launch's own back: the accumulator's contents are forgotten. -/
theorem leaveX (c : Dev nD) : (datX V c).Φ (Fin.last cfg1.N) ⊢ Pipeline.ΦA spec1 c := by
  rw [show (datX V c).Φ (Fin.last cfg1.N) = PhiX V c (Fin.last cfg1.N).val (Nat.le_of_lt_succ (Fin.last cfg1.N).isLt) from rfl,
    PhiA_split]
  exact PhiX_forget V c _ _

end Cert.KernelIdeal.Frm

end
-- ==== Proof.FrameRun.lean ====
/-
  The whole program: the two launches in a row.  Between them the core's buffers are the launch memory with W's
  array at what the first launch's write-backs leave; after the second, also the result's array at what the second
  launch's write-backs leave.  No launch writes an argument.  From the two regions' obligations, every weakly fair
  execution of @main terminates, faults nowhere, and ends with the result's array at the second launch's final
  contents and the four arguments as launched — for any float instance F.
-/
import proofs.«155811_j69466801045558_1_alg».proof.Proof.Gen.KernelIdeal.Launch
import proofs.«155811_j69466801045558_1_alg».proof.Proof.Gen.KernelIdeal.Skeleton
import proofs.«155811_j69466801045558_1_alg».proof.Proof.Gen.KernelIdeal.Points
import proofs.«155811_j69466801045558_1_alg».proof.Proof.FrameW
import proofs.«155811_j69466801045558_1_alg».proof.Proof.FrameXData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- At launch. -/
abbrev B0 : Dev nD → Valuation τ sig (Elt F) := fun c b => m (c, b)
abbrev C0 : (c : Dev nD) → (b : Ref sig .tc) → Buf (Elt F) ((c : Thread nD τ).loc b) := fun c b => B0 m c b
/-- After the first launch: its arrays at what its write-backs leave, every other buffer as before. -/
def B1 (c : Dev nD) : Valuation τ sig (Elt F) :=
  Pipeline.withArrays spec0 c (B0 m c) fun w => (datW (C0 m) c).arrAt w cfg0.N
theorem B1_arr (c : Dev nD) (w : Fin cfg0.W) :
    B1 m c (Proc.devRef .tc (Pipeline.arrRef spec0 w)) = (datW (C0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev C1 : (c : Dev nD) → (b : Ref sig .tc) → Buf (Elt F) ((c : Thread nD τ).loc b) := fun c b => B1 m c b
theorem exitW (c : Dev nD) (w : Fin cfg0.W) : (datW (C0 m) c).arrAt w cfg0.N = C1 m c (Pipeline.arrRef spec0 w) :=
  (B1_arr m c w).symm
theorem keepW (c : Dev nD) : ∀ b, b ∉ Finset.univ.image (Pipeline.arrRef spec0) → C1 m c b = C0 m c b :=
  fun b hb => B1_of_ne m c b fun w e => hb (Finset.mem_image.mpr ⟨w, Finset.mem_univ _, e⟩)

/-- After the second launch. -/
def B2 (c : Dev nD) : Valuation τ sig (Elt F) :=
  Pipeline.withArrays spec1 c (B1 m c) fun w => (datX (C1 m) c).arrAt w cfg1.N
theorem B2_arr (c : Dev nD) (w : Fin cfg1.W) :
    B2 m c (Proc.devRef .tc (Pipeline.arrRef spec1 w)) = (datX (C1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev C2 : (c : Dev nD) → (b : Ref sig .tc) → Buf (Elt F) ((c : Thread nD τ).loc b) := fun c b => B2 m c b
theorem exitX (c : Dev nD) (w : Fin cfg1.W) : (datX (C1 m) c).arrAt w cfg1.N = C2 m c (Pipeline.arrRef spec1 w) :=
  (B2_arr m c w).symm
theorem keepX (c : Dev nD) : ∀ b, b ∉ Finset.univ.image (Pipeline.arrRef spec1) → C2 m c b = C1 m c b :=
  fun b hb => B2_of_ne m c b fun w e => hb (Finset.mem_image.mpr ⟨w, Finset.mem_univ _, e⟩)

/-! ## The arguments and the table at the boundaries -/

/-- x is read by the second launch only, through an input window. -/
theorem B2_x (c : Dev nD) : B2 m c (Proc.devRef .tc main_arg0) = m ((c : Thread nD τ).loc main_arg0) :=
  calc B2 m c (Proc.devRef .tc main_arg0)
    _ = B1 m c (Proc.devRef .tc main_arg0) := (B2_arr m c 0).trans (((datX (C1 m) c).arrAt_in 0 rfl _).trans (datX_A (C1 m) c 0))
    _ = B0 m c (Proc.devRef .tc main_arg0) := B1_of_ne m c main_arg0 (by decide)
    _ = m ((c : Thread nD τ).loc main_arg0) := rfl
/-- U0, U1, U2 are read by the first launch only, through input windows. -/
theorem B2_u0 (c : Dev nD) : B2 m c (Proc.devRef .tc main_arg1) = m ((c : Thread nD τ).loc main_arg1) :=
  calc B2 m c (Proc.devRef .tc main_arg1)
    _ = B1 m c (Proc.devRef .tc main_arg1) := B2_of_ne m c main_arg1 (by decide)
    _ = B0 m c (Proc.devRef .tc main_arg1) := (B1_arr m c 0).trans (((datW (C0 m) c).arrAt_in 0 rfl _).trans (datW_A (C0 m) c 0))
    _ = m ((c : Thread nD τ).loc main_arg1) := rfl
theorem B2_u1 (c : Dev nD) : B2 m c (Proc.devRef .tc main_arg2) = m ((c : Thread nD τ).loc main_arg2) :=
  calc B2 m c (Proc.devRef .tc main_arg2)
    _ = B1 m c (Proc.devRef .tc main_arg2) := B2_of_ne m c main_arg2 (by decide)
    _ = B0 m c (Proc.devRef .tc main_arg2) := (B1_arr m c 1).trans (((datW (C0 m) c).arrAt_in 1 rfl _).trans (datW_A (C0 m) c 1))
    _ = m ((c : Thread nD τ).loc main_arg2) := rfl
theorem B2_u2 (c : Dev nD) : B2 m c (Proc.devRef .tc main_arg3) = m ((c : Thread nD τ).loc main_arg3) :=
  calc B2 m c (Proc.devRef .tc main_arg3)
    _ = B1 m c (Proc.devRef .tc main_arg3) := B2_of_ne m c main_arg3 (by decide)
    _ = B0 m c (Proc.devRef .tc main_arg3) := (B1_arr m c 2).trans (((datW (C0 m) c).arrAt_in 2 rfl _).trans (datW_A (C0 m) c 2))
    _ = m ((c : Thread nD τ).loc main_arg3) := rfl
/-- The result's array ends at what the second launch's write-backs leave. -/
theorem B2_out (c : Dev nD) : B2 m c (Proc.devRef .tc main_v1) = (datX (C1 m) c).arrAt 2 cfg1.N := B2_arr m c 2
/-- The second launch finds x as launched and the table as the first launch left it. -/
theorem C1_x (c : Dev nD) : C1 m c main_arg0 = m ((c : Thread nD τ).loc main_arg0) := B1_of_ne m c main_arg0 (by decide)
theorem C1_table (c : Dev nD) : C1 m c main_v0 = (datW (C0 m) c).arrAt 3 cfg0.N := B1_arr m c 3

/-! ## The proof data of both launches, and what rides along -/

abbrev adm : (p : Fin 2) → (pcfgs (F := F) p).Adm := fun p => (cfgs p).toPCfg_adm
/-- Both launches' proof data, each at the contents its launch is entered from. -/
def pdats : (p : Fin 2) → (c : Dev nD) → Dat τ (Elt F) Unit ℕ (UR sig nD τ) ℕ (Pipeline.pin (pcfgs (F := F)) adm p) c
  | ⟨0, _⟩ => fun c => datW (C0 m) c
  | ⟨1, _⟩ => fun c => datX (C1 m) c
abbrev 𝒱₀ : Variants := Variants.none
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B2 m c) ∗ ∃ r, prngReg c r)

/-! ## The launches as segments -/

set_option backward.isDefEq.respectTransparency.types false in
/-- The first launch: entered from the launch memory, left with W's array filled in. -/
def segW : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationW (C0 m) c).loose
  hwaits := Pipeline.hwaits_of_owed_zero _ _ _ _ L lv 0 fun _ _ => rfl
  pre c := iprop(StableHlo.held (c : Thread nD τ) (Pipeline.ucRefs τ sig) (B0 m c) ∗ R c)
  post c := iprop(StableHlo.held (c : Thread nD τ) (Pipeline.ucRefs τ sig) (B1 m c) ∗ R c)
  X c := iprop(∃ r, prngReg c r)
  Y c := iprop(∃ r, prngReg c r)
  Z c := Pipeline.unscopedRest (Ix := Unit) (Name := ℕ) (U := UR sig nD τ) (Lvl := ℕ) spec0 c (C0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (C0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (C0 m c) (C1 m c) ((pdats m 0 c).arrAt · cfg0.N) (exitW m c) (keepW m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from what the first left, left with the result's array filled in; its invariant takes
    the generator register and the scoped buffers in and gives them back, the accumulator's contents forgotten. -/
def segX : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationX (C1 m) c).loose
  hwaits := Pipeline.hwaits_of_owed_zero _ _ _ _ L lv 1 fun _ _ => rfl
  pre c := iprop(StableHlo.held (c : Thread nD τ) (Pipeline.ucRefs τ sig) (B1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (C1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (C1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (enterX (C1 m) c)
    unfold Pipeline.ΦA
    iintro ⟨Hp, -, Hr⟩
    isplitl [Hr]; · iexact Hr
    iexact Hp
  hout c := by
    rw [Pipeline.ownSems0_none]
    refine (leaveX (C1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (C1 m c) (C2 m c) ((pdats m 1 c).arrAt · cfg1.N) (exitX m c) (keepX m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (segW m), .region (segX m) ]
theorem main_is_segs (c : Dev nD) : main (F := F) c = Pipeline.Seg.run (segs m) := (main_chain c).trans (by chain_rfl)

set_option backward.isDefEq.respectTransparency.types false in
/-- Every weakly fair execution of @main terminates, and every final memory holds the result's array at what the
    second launch's write-backs leave and each argument as launched. -/
theorem run_all : θ_run defs (onTc (τ := τ) (main (F := F))) ⟨m, fun _ => 0, ρ⟩ (fun r => ∀ c : Dev nD,
      r.2.mem ((c.tc : Thread nD τ).loc main_v1) = (datX (C1 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B2 m c b)
    (hfin := fun c s' => by
      iintro ⟨⟨Hh, -⟩, HSI⟩
      unfold StableHlo.held
      imodintro
      iapply (pointsTo_read_all (Pipeline.ucRefs τ sig) (fun b => (((c : Thread nD τ)).1, b)) (B2 m c) s')
      isplitl [Hh] <;> iassumption)
    (hQ := fun s h c =>
      ⟨(h c _ (mem_uc main_v1 (by decide))).trans (B2_out m c),
       (h c _ (mem_uc main_arg0 (by decide))).trans (B2_x m c),
       (h c _ (mem_uc main_arg1 (by decide))).trans (B2_u0 m c),
       (h c _ (mem_uc main_arg2 (by decide))).trans (B2_u1 m c),
       (h c _ (mem_uc main_arg3 (by decide))).trans (B2_u2 m c)⟩)

end Cert.KernelIdeal.Frm

end
-- ==== Proof.Spec.lean ====
/-
  What the two programs compute, as functions of the argument arrays over the extended reals.

  The table W has one row for every triple (i2, i1, i0) of digits in base 32, at row number
  n = 1024 i2 + 32 i1 + i0, and W[n, r] = U2[i2, r] · (U1[i1, r] · U0[i0, r]).  The result is the matrix product
  out[b, r] = Σ_n x[b, n] · W[n, r], one sum over all 32768 rows.
-/
import Idealize.ShloMosaic.PureOps.Ideal
import Idealize.ShloMosaic.Lib.ValueIdx

noncomputable section

open scoped BigOperators

namespace Cert.Tensorized

open Idealize.ShloMosaic Idealize.ShloMosaic.ValueIdx

/-- The three base-32 digits of a row number below 32768. -/
def dig0 (n : Fin 32768) : Fin 32 := ⟨n.val % 32, Nat.mod_lt _ (by decide)⟩
def dig1 (n : Fin 32768) : Fin 32 := ⟨n.val / 32 % 32, Nat.mod_lt _ (by decide)⟩
def dig2 (n : Fin 32768) : Fin 32 := ⟨n.val / 1024, by have := n.isLt; omega⟩

/-- One entry of the table: the product of the three factors' entries at the row's digits. -/
def tableAt (u0 u1 u2 : (⟨2, ![32, 256]⟩ : Shape).Idx → EReal) (n : Fin 32768) (r : Fin 256) : EReal :=
  u2 (ix2 (dig2 n) r) * (u1 (ix2 (dig1 n) r) * u0 (ix2 (dig0 n) r))

/-- The table as an array. -/
def table (u0 u1 u2 : (⟨2, ![32, 256]⟩ : Shape).Idx → EReal) : (⟨2, ![32768, 256]⟩ : Shape).Idx → EReal :=
  fun i => tableAt u0 u1 u2 (i 0) (i 1)

/-- One entry of x · W. -/
def productAt (x : (⟨2, ![2048, 32768]⟩ : Shape).Idx → EReal) (W : (⟨2, ![32768, 256]⟩ : Shape).Idx → EReal)
    (b : Fin 2048) (r : Fin 256) : EReal :=
  ∑ n : Fin 32768, x (ix2 b n) * W (ix2 n r)

/-- x · W as an array. -/
def product (x : (⟨2, ![2048, 32768]⟩ : Shape).Idx → EReal) (W : (⟨2, ![32768, 256]⟩ : Shape).Idx → EReal) :
    (⟨2, ![2048, 256]⟩ : Shape).Idx → EReal :=
  fun i => productAt x W (i 0) (i 1)

/-- The whole computation. -/
def result (x : (⟨2, ![2048, 32768]⟩ : Shape).Idx → EReal) (u0 u1 u2 : (⟨2, ![32, 256]⟩ : Shape).Idx → EReal) :
    (⟨2, ![2048, 256]⟩ : Shape).Idx → EReal :=
  product x (table u0 u1 u2)

theorem table_apply (u0 u1 u2 : (⟨2, ![32, 256]⟩ : Shape).Idx → EReal) (n : Fin 32768) (r : Fin 256) :
    table u0 u1 u2 (ix2 n r) = tableAt u0 u1 u2 n r := rfl

theorem product_apply (x : (⟨2, ![2048, 32768]⟩ : Shape).Idx → EReal) (W : (⟨2, ![32768, 256]⟩ : Shape).Idx → EReal)
    (b : Fin 2048) (r : Fin 256) : product x W (ix2 b r) = productAt x W b r := rfl

end Cert.Tensorized

end
-- ==== Proof.Entry.lean ====
/-
  The two kernels' arithmetic read at one entry, over the extended reals.
-/
import proofs.«155811_j69466801045558_1_alg».proof.Proof.Gen.KernelIdeal.Skeleton
import proofs.«155811_j69466801045558_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Entry

open Cert.KernelIdeal Cert.KernelIdeal.Gen
open Idealize.ShloMosaic Idealize.ShloMosaic.ValueIdx

/-! ## The block product's operand indices

The contraction of the block product runs over the left operand's axis 1 and the right operand's axis 0; the row of the
result is the left operand's axis 0 and its column the right operand's axis 1. -/

/-- The left operand's row is the result's row. -/
theorem lhs_step_0 (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide),
    dif_pos (show (0 : Fin S1024x2048.rank) ∈ dot_S1024x2048_S2048x256_S1024x256_1_0_0_1_n_n.lhsNonContracting by decide)]
  rfl

/-- The left operand's column is the contraction's coordinate. -/
theorem lhs_step_1 (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k

/-- The right operand's row is the contraction's coordinate. -/
theorem rhs_step_0 (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k

/-- The right operand's column is the result's column. -/
theorem rhs_step_1 (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide),
    dif_pos (show (1 : Fin S2048x256.rank) ∈ dot_S1024x2048_S2048x256_S1024x256_1_0_0_1_n_n.rhsNonContracting by decide)]
  rfl

/-- The block product into a zero accumulator, read at an entry: the sum over the 2048 contracted columns. -/
theorem blockProduct_entry (a : FVec Ideal S1024x2048 .bf16) (b : FVec Ideal S2048x256 .bf16) (p : Fin 1024) (q : Fin 256) :
    matmul (F := Ideal) dot_S1024x2048_S2048x256_S1024x256_1_0_0_1_n_n none a b (constant (F := Ideal) S1024x256 .f32 0x00000000#32) (ix2 p q)
      = ∑ j : Fin 2048, a (ix2 p j) * b (ix2 j q) := by
  simp only [matmul]
  rw [Ideal.matmul_constant_zero_apply,
    ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q)
      ((contrEquiv1 dot_S1024x2048_S2048x256_S1024x256_1_0_0_1_n_n 2048 rfl rfl).symm k) = ix2 p k :=
    funext fun c => Fin.ext (by
      match c with
      | ⟨0, _⟩ => exact lhs_step_0 _ _
      | ⟨1, _⟩ => exact (lhs_step_1 _ _).trans hk)
  have er : dot_S1024x2048_S2048x256_S1024x256_1_0_0_1_n_n.rhsIdx (ix2 p q)
      ((contrEquiv1 dot_S1024x2048_S2048x256_S1024x256_1_0_0_1_n_n 2048 rfl rfl).symm k) = ix2 k q :=
    funext fun c => Fin.ext (by
      match c with
      | ⟨0, _⟩ => exact (rhs_step_0 _ _).trans hk
      | ⟨1, _⟩ => exact rhs_step_1 _ _)
  rw [el, er]

/-! ## Reshapes and broadcasts of the table's tile, read at an entry

A tile is built by inserting unit axes, repeating rows along them, multiplying, and merging the two leading axes
again. Each such layout operation reads one entry of its operand; the lemmas below name that entry by coordinates. -/

section Layout
variable {α : Type}

/-- An `[a, b, c]` array cast to `[n, c]` (the two leading axes merged) reads, at `(p, e)` with `p = i * b + j`,
    the operand at `(i, j, e)`. -/
theorem shapeCast_abc_nc_apply {a b c n : ℕ} (x : (⟨3, ![a, b, c]⟩ : Shape).Idx → α)
    (h : (⟨3, ![a, b, c]⟩ : Shape).ShapeCasts ⟨2, ![n, c]⟩) (p : Fin n) (e : Fin c) (i : Fin a) (j : Fin b)
    (hp : p.val = i.val * b + j.val) :
    shapeCast ⟨2, ![n, c]⟩ x h (ix2 p e) = x (ix3 i j e) :=
  shapeCast_apply x h _ _ (by
    rw [Shape.rowMajor_val_three, Shape.rowMajor_val_two]
    show (i.val * b + j.val) * c + e.val = p.val * c + e.val
    rw [hp])

/-- An `[a, c]` array cast to `[a, 1, c]` reads, at `(i, u, e)`, the operand at `(i, e)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (e : Fin c) :
    shapeCast ⟨3, ![a, 1, c]⟩ x h (ix3 i u e) = x (ix2 i e) :=
  shapeCast_apply x h _ _ (by
    have hu : u.val = 0 := by omega
    rw [Shape.rowMajor_val_three, Shape.rowMajor_val_two]
    show i.val * c + e.val = (i.val * 1 + u.val) * c + e.val
    rw [hu, Nat.mul_one, Nat.add_zero])

/-- An `[a, 1, c]` array broadcast to `[a, b, c]` reads, at `(i, j, e)`, the operand at `(i, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (e : Fin c) :
    broadcastTo ⟨3, ![a, b, c]⟩ v h (ix3 i j e) = v (ix3 i (0 : Fin 1) e) := by
  refine broadcastTo_apply v h (ix3 i j e) (ix3 i (0 : Fin 1) e) fun ax => ?_
  match ax with
  | ⟨0, _⟩ =>
    show i.val = if a = 1 then 0 else i.val
    split
    · have := i.isLt; omega
    · rfl
  | ⟨1, _⟩ => rfl
  | ⟨2, _⟩ =>
    show e.val = if c = 1 then 0 else e.val
    split
    · have := e.isLt; omega
    · rfl

/-- A `[1, b, c]` array broadcast to `[a, b, c]` reads, at `(i, j, e)`, the operand at `(0, j, e)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (e : Fin c) :
    broadcastTo ⟨3, ![a, b, c]⟩ v h (ix3 i j e) = v (ix3 (0 : Fin 1) j e) := by
  refine broadcastTo_apply v h (ix3 i j e) (ix3 (0 : Fin 1) j e) fun ax => ?_
  match ax with
  | ⟨0, _⟩ => rfl
  | ⟨1, _⟩ =>
    show j.val = if b = 1 then 0 else j.val
    split
    · have := j.isLt; omega
    · rfl
  | ⟨2, _⟩ =>
    show e.val = if c = 1 then 0 else e.val
    split
    · have := e.isLt; omega
    · rfl

end Layout

/-- The pairs' rows: row `m` of the `[1024, 256]` array of products of one row of U1 and one row of U0 is U1's row
    `m / 32` times U0's row `m % 32`. -/
theorem pair_entry (u0 u1 : FVec Ideal S32x256 .f32) (m : Fin 1024) (q : Fin 256) :
    shapeCast S1024x256
        (mulf (broadcastTo S32x32x256 (shapeCast S32x1x256 u1 shapeCasts_S32x256_S32x1x256) broadcasts_S32x1x256_S32x32x256)
          (broadcastTo S32x32x256 (shapeCast S1x32x256 u0 shapeCasts_S32x256_S1x32x256) broadcasts_S1x32x256_S32x32x256))
        shapeCasts_S32x32x256_S1024x256 (ix2 m q)
      = u1 (ix2 (⟨m.val / 32, by have := m.isLt; omega⟩ : Fin 32) q)
        * u0 (ix2 (⟨m.val % 32, Nat.mod_lt _ (by decide)⟩ : Fin 32) q) := by
  refine (shapeCast_abc_nc_apply _ shapeCasts_S32x32x256_S1024x256 m q
    (⟨m.val / 32, by have := m.isLt; omega⟩ : Fin 32) (⟨m.val % 32, Nat.mod_lt _ (by decide)⟩ : Fin 32)
    (by show m.val = m.val / 32 * 32 + m.val % 32; omega)).trans ?_
  rw [mulf_apply, broadcastTo_a1c_abc_apply, broadcastTo_1bc_abc_apply, shapeCast_ac_a1c_apply, shapeCast_ab_1ab_apply]

/-- Row p of a tile of the table (8192 rows: 8 values of the slow digit, all 1024 pairs of the other two) is the
    product of the tile's U2 row p / 1024, U1's row (p / 32) % 32 and U0's row p % 32. -/
theorem tile_entry (u0 u1 : Vec Ideal S32x256 .f32) (u2 : Vec Ideal S8x256 .f32) (p : Fin 8192) (q : Fin 256) :
    k0_pay1 (F := Ideal) u0 u1 u2 (ix2 p q)
      = u2 (ix2 (⟨p.val / 1024, by have := p.isLt; omega⟩ : Fin 8) q)
        * (u1 (ix2 (⟨p.val / 32 % 32, Nat.mod_lt _ (by decide)⟩ : Fin 32) q)
          * u0 (ix2 (⟨p.val % 32, Nat.mod_lt _ (by decide)⟩ : Fin 32) q)) := by
  have hp := p.isLt
  unfold k0_pay1
  show truncf (F := Ideal) .bf16
      (shapeCast S8192x256
        (mulf (F := Ideal) (broadcastTo S8x1024x256 (shapeCast S8x1x256 u2 shapeCasts_S8x256_S8x1x256) broadcasts_S8x1x256_S8x1024x256)
          (broadcastTo S8x1024x256
            (shapeCast S1x1024x256
              (shapeCast S1024x256
                (mulf (F := Ideal) (broadcastTo S32x32x256 (shapeCast S32x1x256 u1 shapeCasts_S32x256_S32x1x256) broadcasts_S32x1x256_S32x32x256)
                  (broadcastTo S32x32x256 (shapeCast S1x32x256 u0 shapeCasts_S32x256_S1x32x256) broadcasts_S1x32x256_S32x32x256))
                shapeCasts_S32x32x256_S1024x256)
              shapeCasts_S1024x256_S1x1024x256)
            broadcasts_S1x1024x256_S8x1024x256))
        shapeCasts_S8x1024x256_S8192x256)
      bitsLt_bf16_f32 (ix2 p q) = _
  rw [truncf_apply]
  refine (shapeCast_abc_nc_apply _ shapeCasts_S8x1024x256_S8192x256 p q
    (⟨p.val / 1024, by omega⟩ : Fin 8) (⟨p.val % 1024, Nat.mod_lt _ (by decide)⟩ : Fin 1024)
    (by show p.val = p.val / 1024 * 1024 + p.val % 1024; omega)).trans ?_
  rw [mulf_apply, broadcastTo_a1c_abc_apply, broadcastTo_1bc_abc_apply, shapeCast_ac_a1c_apply, shapeCast_ab_1ab_apply,
    pair_entry]
  have e1 : (⟨(⟨p.val % 1024, Nat.mod_lt _ (by decide)⟩ : Fin 1024).val / 32, by omega⟩ : Fin 32)
      = ⟨p.val / 32 % 32, Nat.mod_lt _ (by decide)⟩ := Fin.ext (by show p.val % 1024 / 32 = p.val / 32 % 32; omega)
  have e0 : (⟨(⟨p.val % 1024, Nat.mod_lt _ (by decide)⟩ : Fin 1024).val % 32, Nat.mod_lt _ (by decide)⟩ : Fin 32)
      = ⟨p.val % 32, Nat.mod_lt _ (by decide)⟩ := Fin.ext (by show p.val % 1024 % 32 = p.val % 32; omega)
  rw [e1, e0]

/-- The accumulator's reset value is zero everywhere. -/
theorem zero_entry (p : Fin 1024) (q : Fin 256) : k1_pay1 (F := Ideal) (ix2 p q) = 0 := by
  unfold k1_pay1
  show shapeCast S1024x256 (broadcast S1024x256 (Scalar.ofBits (F := Ideal) .f32 0x00000000#32)) shapeCasts_S1024x256_S1024x256 (ix2 p q) = 0
  rw [shapeCast_self, broadcast_apply]
  exact Ideal.ofBits_zero_f32

/-- One accumulation step adds, at every entry, the block product's entry: the sum over the block's 2048 columns. -/
theorem step_entry (x : Vec Ideal S1024x2048 .f32) (w : Vec Ideal S2048x256 .bf16) (prev : Vec Ideal S1024x256 .f32)
    (p : Fin 1024) (q : Fin 256) :
    k1_pay2 (F := Ideal) x w prev (ix2 p q) = prev (ix2 p q) + ∑ j : Fin 2048, x (ix2 p j) * w (ix2 j q) := by
  unfold k1_pay2
  show shapeCast S1024x256 (addf prev (matmul (F := Ideal) dot_S1024x2048_S2048x256_S1024x256_1_0_0_1_n_n none
      (truncf .bf16 x bitsLt_bf16_f32) (shapeCast S2048x256 w shapeCasts_S2048x256_S2048x256)
      (constant (F := Ideal) S1024x256 .f32 0x00000000#32))) shapeCasts_S1024x256_S1024x256 (ix2 p q) = _
  rw [shapeCast_self, shapeCast_self, addf_apply]
  refine congrArg (prev (ix2 p q) + ·) ?_
  exact blockProduct_entry (truncf .bf16 x bitsLt_bf16_f32) w p q

end Cert.KernelIdeal.Entry

end
-- ==== Proof.ValueW.lean ====
/-
  The table as an array.  Point t of the first launch writes back rows 8192 t .. 8192 t + 8191 of W, and row
  8192 t + p of that block is the product of U2's row 8 t + p / 1024, U1's row (p / 32) % 32 and U0's row p % 32:
  the three base-32 digits of the row number 8192 t + p.  The four blocks tile the array, so after the launch the
  array is the specification's table of the three factors as the launch found them.
-/
import proofs.«155811_j69466801045558_1_alg».proof.Proof.FrameW
import proofs.«155811_j69466801045558_1_alg».proof.Proof.Entry
import proofs.«155811_j69466801045558_1_alg».proof.Proof.Spec
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- Where the four windows' blocks sit at point t: U0 and U1 whole, U2 and W at block row t. -/
theorem where0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three factors as the launch finds them. -/
abbrev fac0 (c : Dev nD) : S32x256.Idx → EReal := V c main_arg1
abbrev fac1 (c : Dev nD) : S32x256.Idx → EReal := V c main_arg2
abbrev fac2 (c : Dev nD) : S32x256.Idx → EReal := V c main_arg3

/-- The blocks read at an entry: U0's and U1's blocks are the whole arrays, U2's block t holds rows 8 t .. 8 t + 7. -/
theorem blk0_at (c : Dev nD) (t : Fin cfg0.N) (a : Fin 32) (q : Fin 256) : blkW V c 0 t (ix2 a q) = fac0 V c (ix2 a q) := by
  obtain ⟨e0, e1, -⟩ := where0 t
  show V c main_arg1 (((cfg0.win 0).blk t).view.emb (ix2 a q)) = V c main_arg1 (ix2 a q)
  congr 1; funext d; apply Fin.ext
  match d with
  | ⟨0, _⟩ => show win0_0.index t (0 : Fin 2) * 32 + 1 * a.val = a.val; omega
  | ⟨1, _⟩ => show win0_0.index t (1 : Fin 2) * 256 + 1 * q.val = q.val; omega
theorem blk1_at (c : Dev nD) (t : Fin cfg0.N) (a : Fin 32) (q : Fin 256) : blkW V c 1 t (ix2 a q) = fac1 V c (ix2 a q) := by
  obtain ⟨-, -, e0, e1, -⟩ := where0 t
  show V c main_arg2 (((cfg0.win 1).blk t).view.emb (ix2 a q)) = V c main_arg2 (ix2 a q)
  congr 1; funext d; apply Fin.ext
  match d with
  | ⟨0, _⟩ => show win0_1.index t (0 : Fin 2) * 32 + 1 * a.val = a.val; omega
  | ⟨1, _⟩ => show win0_1.index t (1 : Fin 2) * 256 + 1 * q.val = q.val; omega
theorem blk2_at (c : Dev nD) (t : Fin cfg0.N) (g : Fin 8) (q : Fin 256) (a : Fin 32) (ha : a.val = 8 * t.val + g.val) :
    blkW V c 2 t (ix2 g q) = fac2 V c (ix2 a q) := by
  obtain ⟨-, -, -, -, e0, e1, -⟩ := where0 t
  show V c main_arg3 (((cfg0.win 2).blk t).view.emb (ix2 g q)) = V c main_arg3 (ix2 a q)
  congr 1; funext d; apply Fin.ext
  match d with
  | ⟨0, _⟩ => show win0_2.index t (0 : Fin 2) * 8 + 1 * g.val = a.val; omega
  | ⟨1, _⟩ => show win0_2.index t (1 : Fin 2) * 256 + 1 * q.val = q.val; omega

/-- What point t writes back is block t of the specification's table. -/
theorem tile_is_table (c : Dev nD) (t : Fin cfg0.N) :
    (datW V c).flushed 3 t
      = ((cfg0.win 3).blk t).view.read (Elt Ideal) (Cert.Tensorized.table (fac0 V c) (fac1 V c) (fac2 V c)) := by
  show (cfg0.win 3).cut (grid0.coords t) ((datW V c).after 3 t) = _
  rw [datW_after3]
  unfold wBlock
  rw [View.canon_unit_zero hz0]
  simp only [View.ld_unit_zero (S := S32x256) hz0, View.ld_unit_zero (S := S8x256) hz0]
  obtain ⟨-, -, -, -, -, -, e0, e1⟩ := where0 t
  have hN : t.val < 4 := lt_of_lt_of_eq t.isLt (show cfg0.N = 4 from N_0)
  funext j
  obtain ⟨p, q, rfl⟩ : ∃ (p : Fin 8192) (q : Fin 256), j = ix2 p q := ⟨j 0, j 1, eq_ix2 j⟩
  have hp := p.isLt
  refine (Cert.KernelIdeal.Entry.tile_entry (blkW V c 0 t) (blkW V c 1 t) (blkW V c 2 t) p q).trans ?_
  have hrow : 8192 * t.val + p.val < 32768 := by omega
  rw [blk0_at V c t _ q, blk1_at V c t _ q,
    blk2_at V c t _ q (Cert.Tensorized.dig2 ⟨8192 * t.val + p.val, hrow⟩) (by show (8192 * t.val + p.val) / 1024 = 8 * t.val + p.val / 1024; omega)]
  show _ = Cert.Tensorized.table (fac0 V c) (fac1 V c) (fac2 V c) (((cfg0.win 3).blk t).view.emb (ix2 p q))
  have hemb : ((cfg0.win 3).blk t).view.emb (ix2 p q) = ix2 (⟨8192 * t.val + p.val, hrow⟩ : Fin 32768) q := by
    funext d; apply Fin.ext
    match d with
    | ⟨0, _⟩ => show win0_3.index t (0 : Fin 2) * 8192 + 1 * p.val = 8192 * t.val + p.val; omega
    | ⟨1, _⟩ => show win0_3.index t (1 : Fin 2) * 256 + 1 * q.val = q.val; omega
  rw [hemb, Cert.Tensorized.table_apply]
  unfold Cert.Tensorized.tableAt
  have h1 : (⟨p.val / 32 % 32, Nat.mod_lt _ (by decide)⟩ : Fin 32) = Cert.Tensorized.dig1 ⟨8192 * t.val + p.val, hrow⟩ :=
    Fin.ext (by show p.val / 32 % 32 = (8192 * t.val + p.val) / 32 % 32; omega)
  have h0 : (⟨p.val % 32, Nat.mod_lt _ (by decide)⟩ : Fin 32) = Cert.Tensorized.dig0 ⟨8192 * t.val + p.val, hrow⟩ :=
    Fin.ext (by show p.val % 32 = (8192 * t.val + p.val) % 32; omega)
  rw [h1, h0]

/-- Every row of W lies in the block of the point its number divided by 8192 names. -/
theorem table_covered (i : S32768x256.Idx) :
    ∃ t : Fin cfg0.N, (cfg0.win 3).flush t = true ∧ i ∈ ((cfg0.win 3).blk t).view.set := by
  have hi0 : (i 0).val < 32768 := (i 0).isLt
  have hi1 : (i 1).val < 256 := (i 1).isLt
  let t : Fin cfg0.N := ⟨(i 0).val / 8192, by rw [show cfg0.N = 4 from N_0]; omega⟩
  obtain ⟨-, -, -, -, -, -, e0, e1⟩ := where0 t
  have et : t.val = (i 0).val / 8192 := rfl
  refine ⟨t, flush0_3 t, ?_⟩
  show i ∈ ((View.whole main_v0).slice (win0_3.rect t)).set
  rw [View.set_slice_whole, Rect.mem_set_unit]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 256 ≤ (i 1).val ∧ (i 1).val < win0_3.index t (1 : Fin 2) * 256 + 256; omega

/-- After the first launch W's array is the table of the three factors. -/
theorem table_final (c : Dev nD) :
    (datW V c).arrAt 3 cfg0.N = Cert.Tensorized.table (fac0 V c) (fac1 V c) (fac2 V c) :=
  (datW V c).arrAt_eq_of_cover 3 _ (fun t _ => tile_is_table V c t) table_covered

end Cert.KernelIdeal.Frm

end
-- ==== Proof.LibBlockSum.lean ====
/-
  A sum over Fin N taken block by block: the terms below B·(k+1) are the terms below B·k and the B terms of block k.
-/
import Mathlib.Algebra.BigOperators.Fin
import Mathlib.Algebra.BigOperators.Intervals

open scoped BigOperators

namespace Cert.BlockSum

/-- The sum of f over the indices below B·(k+1) is the sum over the indices below B·k plus the sum over block k,
    whose j-th index is B·k + j. For any commutative additive monoid (the extended reals included). -/
theorem sum_below_succ {M : Type*} [AddCommMonoid M] {N : ℕ} (B k : ℕ) (hj : ∀ j : Fin B, B * k + j.val < N) (f : Fin N → M) :
    ∑ n ∈ Finset.univ.filter (fun n : Fin N => n.val < B * (k + 1)), f n
      = ∑ n ∈ Finset.univ.filter (fun n : Fin N => n.val < B * k), f n
        + ∑ j : Fin B, f ⟨B * k + j.val, hj j⟩ := by
  -- below B·(k+1) and below B·k is below B·k
  have hlow : Finset.univ.filter (fun n : Fin N => n.val < B * (k + 1) ∧ n.val < B * k)
      = Finset.univ.filter (fun n : Fin N => n.val < B * k) :=
    Finset.filter_congr fun n _ => by
      rw [Nat.mul_succ]
      exact ⟨fun h => h.2, fun h => ⟨by omega, h⟩⟩
  -- below B·(k+1) and not below B·k is block k: the B indices B·k + j
  have hblock : Finset.univ.filter (fun n : Fin N => n.val < B * (k + 1) ∧ ¬ n.val < B * k)
      = Finset.univ.image (fun j : Fin B => (⟨B * k + j.val, hj j⟩ : Fin N)) := by
    ext n
    rw [Finset.mem_filter, Finset.mem_image, Nat.mul_succ]
    constructor
    · rintro ⟨_, h1, h2⟩
      exact ⟨⟨n.val - B * k, by omega⟩, Finset.mem_univ _,
        Fin.ext (by show B * k + (n.val - B * k) = n.val; omega)⟩
    · rintro ⟨j, _, rfl⟩
      have hjB := j.isLt
      exact ⟨Finset.mem_univ _, by show B * k + j.val < B * k + B; omega,
        by show ¬ B * k + j.val < B * k; omega⟩
  rw [← Finset.sum_filter_add_sum_filter_not (Finset.univ.filter (fun n : Fin N => n.val < B * (k + 1)))
      (fun n : Fin N => n.val < B * k) f,
    Finset.filter_filter, Finset.filter_filter, hlow, hblock, Finset.sum_image]
  -- j ↦ B·k + j is injective
  intro a _ b _ h
  have hv : B * k + a.val = B * k + b.val := congrArg Fin.val h
  exact Fin.ext (by omega)

/-- Nothing lies below zero. -/
theorem sum_below_zero {M : Type*} [AddCommMonoid M] {N : ℕ} (B : ℕ) (f : Fin N → M) :
    ∑ n ∈ Finset.univ.filter (fun n : Fin N => n.val < B * 0), f n = 0 := by
  rw [Finset.filter_eq_empty_iff.mpr (fun n _ => by rw [Nat.mul_zero]; exact Nat.not_lt_zero _), Finset.sum_empty]

/-- Everything lies below N. -/
theorem sum_below_all {M : Type*} [AddCommMonoid M] {N : ℕ} (b : ℕ) (hb : N ≤ b) (f : Fin N → M) :
    ∑ n ∈ Finset.univ.filter (fun n : Fin N => n.val < b), f n = ∑ n : Fin N, f n := by
  rw [Finset.filter_true_of_mem (fun n _ => lt_of_lt_of_le n.isLt hb)]

end Cert.BlockSum
-- ==== Proof.ValueX.lean ====
/-
  The result as an array.  Point t = 16 i + k of the second launch reads rows 1024 i .. of x at columns 2048 k ..
  and rows 2048 k .. of W.  After it the accumulator's entry (p, q) is the sum of x[1024 i + p, s] · W[s, q] over
  the columns s below 2048 (k + 1): zero plus block 0 where a row of sixteen starts, the previous partial sum plus
  block k afterwards.  At k = 15 that is the whole sum over the 32768 columns, which the point stores and the
  pipeline writes back as block i of the result; the two blocks tile the result's array.
-/
import proofs.«155811_j69466801045558_1_alg».proof.Proof.FrameXData
import proofs.«155811_j69466801045558_1_alg».proof.Proof.Entry
import proofs.«155811_j69466801045558_1_alg».proof.Proof.Spec
import proofs.«155811_j69466801045558_1_alg».proof.Proof.LibBlockSum
import Idealize.ShloMosaic.Lib.Pipeline.Value
import Idealize.ShloMosaic.Lib.ValueIdx

set_option maxRecDepth 16384

noncomputable section

open scoped BigOperators

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- Where the three windows' blocks sit at point t = 16 i + k: x at block (i, k), W at block row k, the result at
    block row i. -/
theorem where1 : ∀ t : Fin cfg1.N, win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

/-- x and the table as the launch finds them. -/
abbrev xArr (c : Dev nD) : S2048x32768.Idx → EReal := V c main_arg0
abbrev wArr (c : Dev nD) : S32768x256.Idx → EReal := V c main_v0

theorem xBlk_at (c : Dev nD) (t : Fin cfg1.N) (p : Fin 1024) (j : Fin 2048) (b : Fin 2048) (s : Fin 32768)
    (hb : b.val = 1024 * (t.val / 16) + p.val) (hs : s.val = 2048 * (t.val % 16) + j.val) :
    xBlk V c t (ix2 p j) = xArr V c (ix2 b s) := by
  obtain ⟨e0, e1, -⟩ := where1 t
  show V c main_arg0 (((cfg1.win 0).blk t).view.emb (ix2 p j)) = V c main_arg0 (ix2 b s)
  congr 1; funext d; apply Fin.ext
  match d with
  | ⟨0, _⟩ => show win1_0.index t (0 : Fin 2) * 1024 + 1 * p.val = b.val; omega
  | ⟨1, _⟩ => show win1_0.index t (1 : Fin 2) * 2048 + 1 * j.val = s.val; omega
theorem wBlk_at (c : Dev nD) (t : Fin cfg1.N) (j : Fin 2048) (q : Fin 256) (s : Fin 32768)
    (hs : s.val = 2048 * (t.val % 16) + j.val) :
    wBlk V c t (ix2 j q) = wArr V c (ix2 s q) := by
  obtain ⟨-, -, e0, e1, -⟩ := where1 t
  show V c main_v0 (((cfg1.win 1).blk t).view.emb (ix2 j q)) = V c main_v0 (ix2 s q)
  congr 1; funext d; apply Fin.ext
  match d with
  | ⟨0, _⟩ => show win1_1.index t (0 : Fin 2) * 2048 + 1 * j.val = s.val; omega
  | ⟨1, _⟩ => show win1_1.index t (1 : Fin 2) * 256 + 1 * q.val = q.val; omega

/-- The sum of x[b, s] · W[s, q] over the columns s below n. -/
def partialSum (c : Dev nD) (b : Fin 2048) (q : Fin 256) (n : ℕ) : EReal :=
  ∑ s ∈ Finset.univ.filter (fun s : Fin 32768 => s.val < n), xArr V c (ix2 b s) * wArr V c (ix2 s q)

/-- One step: the partial sum below 2048 (k + 1) is the one below 2048 k plus block k's 2048 terms. -/
theorem partialSum_step (c : Dev nD) (b : Fin 2048) (q : Fin 256) (k : ℕ) (hk : k < 16) :
    partialSum V c b q (2048 * (k + 1))
      = partialSum V c b q (2048 * k)
        + ∑ j : Fin 2048, xArr V c (ix2 b (⟨2048 * k + j.val, by have := j.isLt; omega⟩ : Fin 32768))
            * wArr V c (ix2 (⟨2048 * k + j.val, by have := j.isLt; omega⟩ : Fin 32768) q) :=
  Cert.BlockSum.sum_below_succ 2048 k (fun j => by have := j.isLt; omega)
    (fun s : Fin 32768 => xArr V c (ix2 b s) * wArr V c (ix2 s q))

/-- THE ACCUMULATOR: after position n = 16 i + k its entry (p, q) is the partial sum of row 1024 i + p below
    2048 (k + 1). -/
theorem acc_closed (c : Dev nD) : ∀ (n : ℕ) (hn : n < cfg1.N) (p : Fin 1024) (q : Fin 256) (b : Fin 2048),
    b.val = 1024 * (n / 16) + p.val → accAt V c n hn (ix2 p q) = partialSum V c b q (2048 * (n % 16 + 1)) := by
  intro n
  induction n with
  | zero =>
    intro hn p q b hb
    have hacc := accAt_first V c ⟨0, hn⟩ (Nat.zero_mod _)
    have hstep := Cert.KernelIdeal.Entry.step_entry (xBlk V c ⟨0, hn⟩) (wBlk V c ⟨0, hn⟩) (k1_pay1 (F := Ideal)) p q
    refine (congrFun hacc (ix2 p q)).trans ?_
    rw [hstep, Cert.KernelIdeal.Entry.zero_entry, show 0 % 16 + 1 = 0 + 1 from rfl, partialSum_step V c b q 0 (by decide)]
    refine congrArg₂ (· + ·) ?_ (Finset.sum_congr rfl fun j _ => ?_)
    · exact (Cert.BlockSum.sum_below_zero 2048 (fun s : Fin 32768 => xArr V c (ix2 b s) * wArr V c (ix2 s q))).symm
    · rw [xBlk_at V c ⟨0, hn⟩ p j b ⟨2048 * 0 + j.val, by have := j.isLt; omega⟩ hb rfl,
        wBlk_at V c ⟨0, hn⟩ j q ⟨2048 * 0 + j.val, by have := j.isLt; omega⟩ rfl]
  | succ n ih =>
    intro hn p q b hb
    have hN : n + 1 < 32 := lt_of_lt_of_eq hn (show cfg1.N = 32 from N_1)
    by_cases h0 : (n + 1) % 16 = 0
    · have hacc := accAt_first V c ⟨n + 1, hn⟩ h0
      have hstep := Cert.KernelIdeal.Entry.step_entry (xBlk V c ⟨n + 1, hn⟩) (wBlk V c ⟨n + 1, hn⟩) (k1_pay1 (F := Ideal)) p q
      refine (congrFun hacc (ix2 p q)).trans ?_
      rw [hstep, Cert.KernelIdeal.Entry.zero_entry, h0, partialSum_step V c b q 0 (by decide)]
      refine congrArg₂ (· + ·) ?_ (Finset.sum_congr rfl fun j _ => ?_)
      · exact (Cert.BlockSum.sum_below_zero 2048 (fun s : Fin 32768 => xArr V c (ix2 b s) * wArr V c (ix2 s q))).symm
      · rw [xBlk_at V c ⟨n + 1, hn⟩ p j b ⟨2048 * 0 + j.val, by have := j.isLt; omega⟩ hb (by show 2048 * 0 + j.val = 2048 * ((n + 1) % 16) + j.val; rw [h0]),
          wBlk_at V c ⟨n + 1, hn⟩ j q ⟨2048 * 0 + j.val, by have := j.isLt; omega⟩ (by show 2048 * 0 + j.val = 2048 * ((n + 1) % 16) + j.val; rw [h0])]
    · have hacc := accAt_next V c ⟨n + 1, hn⟩ h0
      have hprev := ih (Nat.lt_of_succ_lt hn) p q b (by rw [hb]; show 1024 * ((n + 1) / 16) + p.val = 1024 * (n / 16) + p.val; omega)
      have hk : (n + 1) % 16 < 16 := Nat.mod_lt _ (by decide)
      have hstep := Cert.KernelIdeal.Entry.step_entry (xBlk V c ⟨n + 1, hn⟩) (wBlk V c ⟨n + 1, hn⟩)
        (accAt V c n (Nat.lt_of_succ_lt hn)) p q
      refine (congrFun hacc (ix2 p q)).trans ?_
      rw [show accAt V c ((⟨n + 1, hn⟩ : Fin cfg1.N).val - 1) (Nat.lt_of_le_of_lt (Nat.sub_le _ _) (⟨n + 1, hn⟩ : Fin cfg1.N).isLt)
          = accAt V c n (Nat.lt_of_succ_lt hn) from rfl,
        hstep, hprev, show n % 16 + 1 = (n + 1) % 16 from by omega, partialSum_step V c b q ((n + 1) % 16) hk]
      refine congrArg₂ (· + ·) rfl (Finset.sum_congr rfl fun j _ => ?_)
      rw [xBlk_at V c ⟨n + 1, hn⟩ p j b ⟨2048 * ((n + 1) % 16) + j.val, by have := j.isLt; omega⟩ hb rfl,
        wBlk_at V c ⟨n + 1, hn⟩ j q ⟨2048 * ((n + 1) % 16) + j.val, by have := j.isLt; omega⟩ rfl]

/-- What a row's last point writes back is its block of x · W. -/
theorem block_is_product (c : Dev nD) (t : Fin cfg1.N) (hf : (cfg1.win 2).flush t = true) :
    (datX V c).flushed 2 t
      = ((cfg1.win 2).blk t).view.read (Elt Ideal) (Cert.Tensorized.product (xArr V c) (wArr V c)) := by
  have hlast : t.val % 16 = 15 := (flush1_2 t).mp hf
  have hN : t.val < 32 := lt_of_lt_of_eq t.isLt (show cfg1.N = 32 from N_1)
  obtain ⟨-, -, -, -, e0, e1⟩ := where1 t
  show (cfg1.win 2).cut (grid1.coords t) ((datX V c).after 2 t) = _
  rw [datX_after2]
  funext j
  obtain ⟨p, q, rfl⟩ : ∃ (p : Fin 1024) (q : Fin 256), j = ix2 p q := ⟨j 0, j 1, eq_ix2 j⟩
  have hp := p.isLt
  have hrow : 1024 * (t.val / 16) + p.val < 2048 := by omega
  refine (acc_closed V c t.val t.isLt p q ⟨1024 * (t.val / 16) + p.val, hrow⟩ rfl).trans ?_
  rw [View.read_apply]
  have hemb : ((cfg1.win 2).blk t).view.emb (ix2 p q) = ix2 (⟨1024 * (t.val / 16) + p.val, hrow⟩ : Fin 2048) q := by
    funext d; apply Fin.ext
    match d with
    | ⟨0, _⟩ => show win1_2.index t (0 : Fin 2) * 1024 + 1 * p.val = 1024 * (t.val / 16) + p.val; omega
    | ⟨1, _⟩ => show win1_2.index t (1 : Fin 2) * 256 + 1 * q.val = q.val; omega
  rw [hemb, Cert.Tensorized.product_apply, hlast]
  have hall : (32768 : ℕ) ≤ 2048 * (15 + 1) := by norm_num
  unfold partialSum Cert.Tensorized.productAt
  rw [cast_eq]
  exact Cert.BlockSum.sum_below_all (N := 32768) (2048 * (15 + 1)) hall
    (fun s : Fin 32768 => xArr V c (ix2 (⟨1024 * (t.val / 16) + p.val, hrow⟩ : Fin 2048) s) * wArr V c (ix2 s q))

/-- Every row of the result lies in the block written back at the last point of its row of sixteen. -/
theorem product_covered (i : S2048x256.Idx) :
    ∃ t : Fin cfg1.N, (cfg1.win 2).flush t = true ∧ i ∈ ((cfg1.win 2).blk t).view.set := by
  have hi0 : (i 0).val < 2048 := (i 0).isLt
  have hi1 : (i 1).val < 256 := (i 1).isLt
  let t : Fin cfg1.N := ⟨16 * ((i 0).val / 1024) + 15, by rw [show cfg1.N = 32 from N_1]; omega⟩
  obtain ⟨-, -, -, -, e0, e1⟩ := where1 t
  have et : t.val = 16 * ((i 0).val / 1024) + 15 := rfl
  refine ⟨t, (flush1_2 t).mpr (by omega), ?_⟩
  show i ∈ ((View.whole main_v1).slice (win1_2.rect t)).set
  rw [View.set_slice_whole, Rect.mem_set_unit]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 256 ≤ (i 1).val ∧ (i 1).val < win1_2.index t (1 : Fin 2) * 256 + 256; omega

/-- After the second launch the result's array is x · W of the arrays the launch found. -/
theorem product_final (c : Dev nD) :
    (datX V c).arrAt 2 cfg1.N = Cert.Tensorized.product (xArr V c) (wArr V c) :=
  (datX V c).arrAt_eq_of_cover 2 _ (fun t hf => block_is_product V c t hf) product_covered

end Cert.KernelIdeal.Frm

end
-- ==== Proof.ValueAll.lean ====
/-
  The kernel's result: the second launch finds x as launched and W as the first launch left it, which is the table of
  U0, U1, U2 as launched; so the result's array ends at x · table(U0, U1, U2), the specification's result.
-/
import proofs.«155811_j69466801045558_1_alg».proof.Proof.FrameRun
import proofs.«155811_j69466801045558_1_alg».proof.Proof.ValueW
import proofs.«155811_j69466801045558_1_alg».proof.Proof.ValueX

noncomputable section

namespace Cert.KernelIdeal.Frm

open Cert.KernelIdeal Cert.KernelIdeal.Gen
open Idealize.ShloMosaic Idealize.ShloMosaic.TcCoe
open Idealize.SL.Sem

variable (m : (ℓ : Loc nD τ sig) → Buf (Elt Ideal) ℓ)

/-- What the second launch finds in W's array is the table of the three factors as launched. -/
theorem found_table (c : Dev nD) :
    wArr (C1 m) c = Cert.Tensorized.table (m ((c : Thread nD τ).loc main_arg1)) (m ((c : Thread nD τ).loc main_arg2))
      (m ((c : Thread nD τ).loc main_arg3)) :=
  (C1_table m c).trans (table_final (C0 m) c)

/-- and what it finds in x's array is x as launched. -/
theorem found_x (c : Dev nD) : xArr (C1 m) c = m ((c : Thread nD τ).loc main_arg0) := C1_x m c

/-- The result's array after the run is the specification's result of the launch memory's arguments. -/
theorem kernel_result (c : Dev nD) :
    (datX (C1 m) c).arrAt 2 cfg1.N
      = Cert.Tensorized.result (m ((c : Thread nD τ).loc main_arg0)) (m ((c : Thread nD τ).loc main_arg1))
          (m ((c : Thread nD τ).loc main_arg2)) (m ((c : Thread nD τ).loc main_arg3)) := by
  rw [product_final (C1 m) c, found_x m c, found_table m c]
  rfl

end Cert.KernelIdeal.Frm

end
-- ==== Proof.RefSpec.lean ====
/-
  The reference program's result is the specification: its table, built factor by factor from a row of ones, is the
  table of the specification (1 · a = a, and the product of three factors regrouped), and its dot_general is the one sum.
-/
import proofs.«155811_j69466801045558_1_alg».proof.Proof.Gen.ReferenceIdeal.Read
import proofs.«155811_j69466801045558_1_alg».proof.Proof.Spec
import Idealize.ShloMosaic.Lib.ValueIdx
import Idealize.ShloMosaic.Lib.IdealHost
import Idealize.ShloMosaic.PureOps.Ideal.Laws

noncomputable section

open scoped BigOperators

namespace Cert.ReferenceIdeal.Spec

open Cert.ReferenceIdeal Cert.ReferenceIdeal.Gen Cert.ReferenceIdeal.Read
open Idealize.ShloMosaic Idealize.ShloMosaic.ValueIdx

/-- The word the row of ones is filled with is the extended real one. -/
theorem one_word : FloatOps.ofBits (F := Ideal) .f32 0x3F800000#32 = (1 : EReal) := Ideal.ofBits_one_f32

/-! ## First round: rows a < 32.  Entry (a, r) is 1 · U2[a, r]. -/

/-- Through the first reshape and the broadcast of U2, entry (a, r) reads U2 at (a, r):
    (256 a + r) / 256 % 32 = a and (256 a + r) % 256 = r. -/
theorem idx_round1 (a : Fin 32) (r : Fin 256) : idx_main_v2 (idx_main_v5 (ix2 a r)) = ix2 a r :=
  funext fun d => Fin.ext (by
    have ha := a.isLt
    have hr := r.isLt
    match d with
    | ⟨0, _⟩ => show (a.val * 256 + r.val) / 256 % 32 = a.val; omega
    | ⟨1, _⟩ => show (a.val * 256 + r.val) % 256 = r.val; omega)

/-- The first round's array is U2 itself: 1 · a = a. -/
theorem round1 (x3 : (⟨S32x256, .f32⟩ : BufTy).Contents (Elt Ideal)) (a : Fin 32) (r : Fin 256) :
    val_main_v5 (F := Ideal) x3 (ix2 a r) = x3 (ix2 a r) := by
  rw [val_main_v5_apply, val_main_v4_apply, val_main_v3_apply, val_main_v1_apply, val_main_v0_apply,
    val_main_cst_apply, val_main_v2_apply, idx_round1, one_word, Ideal.mulf_def, one_mul]

/-! ## Second round: rows m = 32 a + c < 1024.  Entry (m, r) is U2[a, r] · U1[c, r]. -/

/-- The first factor of row m = 32 a + c is read at row a: (256 m + r) / 8192 = a. -/
theorem idx_round2_hi (m : Fin 1024) (a c : Fin 32) (r : Fin 256) (h : m.val = 32 * a.val + c.val) :
    idx_main_v6 (idx_main_v8 (idx_main_v11 (ix2 m r))) = ix2 a r :=
  funext fun d => Fin.ext (by
    have hc := c.isLt
    have hr := r.isLt
    match d with
    | ⟨0, _⟩ => show (m.val * 256 + r.val) / 8192 = a.val; omega
    | ⟨1, _⟩ => show (m.val * 256 + r.val) % 256 = r.val; omega)

/-- The second factor of row m = 32 a + c is read at row c: (256 m + r) / 256 % 32 = c. -/
theorem idx_round2_lo (m : Fin 1024) (a c : Fin 32) (r : Fin 256) (h : m.val = 32 * a.val + c.val) :
    idx_main_v7 (idx_main_v9 (idx_main_v11 (ix2 m r))) = ix2 c r :=
  funext fun d => Fin.ext (by
    have hc := c.isLt
    have hr := r.isLt
    match d with
    | ⟨0, _⟩ => show (m.val * 256 + r.val) / 256 % 32 = c.val; omega
    | ⟨1, _⟩ => show (m.val * 256 + r.val) % 256 = r.val; omega)

/-- The second round's array at row m = 32 a + c. -/
theorem round2 (x2 x3 : (⟨S32x256, .f32⟩ : BufTy).Contents (Elt Ideal)) (m : Fin 1024) (a c : Fin 32) (r : Fin 256)
    (h : m.val = 32 * a.val + c.val) :
    val_main_v11 (F := Ideal) x2 x3 (ix2 m r) = x3 (ix2 a r) * x2 (ix2 c r) := by
  rw [val_main_v11_apply, val_main_v10_apply, val_main_v8_apply, val_main_v6_apply, val_main_v9_apply,
    val_main_v7_apply, idx_round2_hi m a c r h, idx_round2_lo m a c r h, round1, Ideal.mulf_def]

/-! ## Third round: rows n = 32 m + c < 32768.  Entry (n, r) is (second round)[m, r] · U0[c, r]. -/

/-- The first factor of row n = 32 m + c is read at row m: (256 n + r) / 8192 = m. -/
theorem idx_round3_hi (n : Fin 32768) (m : Fin 1024) (c : Fin 32) (r : Fin 256) (h : n.val = 32 * m.val + c.val) :
    idx_main_v12 (idx_main_v14 (idx_main_v17 (ix2 n r))) = ix2 m r :=
  funext fun d => Fin.ext (by
    have hc := c.isLt
    have hr := r.isLt
    match d with
    | ⟨0, _⟩ => show (n.val * 256 + r.val) / 8192 = m.val; omega
    | ⟨1, _⟩ => show (n.val * 256 + r.val) % 256 = r.val; omega)

/-- The second factor of row n = 32 m + c is read at row c: (256 n + r) / 256 % 32 = c. -/
theorem idx_round3_lo (n : Fin 32768) (m : Fin 1024) (c : Fin 32) (r : Fin 256) (h : n.val = 32 * m.val + c.val) :
    idx_main_v13 (idx_main_v15 (idx_main_v17 (ix2 n r))) = ix2 c r :=
  funext fun d => Fin.ext (by
    have hc := c.isLt
    have hr := r.isLt
    match d with
    | ⟨0, _⟩ => show (n.val * 256 + r.val) / 256 % 32 = c.val; omega
    | ⟨1, _⟩ => show (n.val * 256 + r.val) % 256 = r.val; omega)

/-- The third round's array at row n = 32 m + c. -/
theorem round3 (x1 x2 x3 : (⟨S32x256, .f32⟩ : BufTy).Contents (Elt Ideal)) (n : Fin 32768) (m : Fin 1024) (c : Fin 32)
    (r : Fin 256) (h : n.val = 32 * m.val + c.val) :
    val_main_v17 (F := Ideal) x1 x2 x3 (ix2 n r) = val_main_v11 (F := Ideal) x2 x3 (ix2 m r) * x1 (ix2 c r) := by
  rw [val_main_v17_apply, val_main_v16_apply, val_main_v14_apply, val_main_v12_apply, val_main_v15_apply,
    val_main_v13_apply, idx_round3_hi n m c r h, idx_round3_lo n m c r h, Ideal.mulf_def]

/-! ## The table and the sum -/

/-- The reference's table is the specification's: with n = 1024 i2 + 32 i1 + i0 the entry is
    (U2[i2, r] · U1[i1, r]) · U0[i0, r], regrouped. -/
theorem table_entry (x1 x2 x3 : (⟨S32x256, .f32⟩ : BufTy).Contents (Elt Ideal)) (n : Fin 32768) (r : Fin 256) :
    val_main_v17 (F := Ideal) x1 x2 x3 (ix2 n r) = Cert.Tensorized.tableAt x1 x2 x3 n r := by
  have hn := n.isLt
  rw [round3 x1 x2 x3 n ⟨n.val / 32, by omega⟩ (Cert.Tensorized.dig0 n) r
      (by show n.val = 32 * (n.val / 32) + n.val % 32; omega),
    round2 x2 x3 ⟨n.val / 32, by omega⟩ (Cert.Tensorized.dig2 n) (Cert.Tensorized.dig1 n) r
      (by show n.val / 32 = 32 * (n.val / 1024) + n.val / 32 % 32; omega)]
  unfold Cert.Tensorized.tableAt
  rw [mul_assoc]

/-- The reference's last stage, as a function of the four arguments (x, U0, U1, U2 in @main's order), is the
    specification's result. -/
theorem reference_is_result (x0 : (⟨S2048x32768, .f32⟩ : BufTy).Contents (Elt Ideal))
    (x1 x2 x3 : (⟨S32x256, .f32⟩ : BufTy).Contents (Elt Ideal)) :
    val_main_v18 (F := Ideal) x0 x1 x2 x3 = Cert.Tensorized.result x0 x1 x2 x3 := by
  funext i
  obtain ⟨b, r, rfl⟩ : ∃ (b : Fin 2048) (r : Fin 256), i = ix2 b r := ⟨i 0, i 1, eq_ix2 i⟩
  rw [val_main_v18_apply]
  show _ = Cert.Tensorized.productAt x0 (Cert.Tensorized.table x1 x2 x3) b r
  unfold Cert.Tensorized.productAt
  refine Finset.sum_congr rfl fun n _ => ?_
  have el : lidx_main_v18 (ix2 b r) n = ix2 b n :=
    funext fun a => Fin.ext (by match a with | ⟨0, _⟩ => rfl | ⟨1, _⟩ => rfl)
  have er : ridx_main_v18 (ix2 b r) n = ix2 n r :=
    funext fun a => Fin.ext (by match a with | ⟨0, _⟩ => rfl | ⟨1, _⟩ => rfl)
  rw [el, er, table_entry, Cert.Tensorized.table_apply]

end Cert.ReferenceIdeal.Spec

end
-- ==== Proof.lean ====
/-
  The kernel computes out = x · W in two launches — first the Khatri-Rao table W[1024 i2 + 32 i1 + i0, r] =
  U2[i2, r] · (U1[i1, r] · U0[i0, r]), tile by tile, then the matrix product accumulated over sixteen column blocks in
  a scratch accumulator — and the reference builds the same table factor by factor from a row of ones and takes one
  dot_general.  Over the extended reals both are Σ_n x[b, n] · U2[i2, r] · U1[i1, r] · U0[i0, r]: the table's entries
  agree by 1 · a = a and regrouping a product of three factors, the sums by taking the 32768 terms block by block.
  Only commutativity and associativity are used, so the inputs' finiteness is never opened.

  The frames: each program of the kernel runs to the end because each launch's body meets the pipeline's obligation at
  every grid point (Proof/FrameW, FrameX, FrameXData, FrameRun; the same text at the word-level program's namespace in
  Proof/KFrame*), and no launch writes an argument; the reference's frame is its run with the result dropped.  The
  idealization rewrote nothing, so there is nothing to preserve.
-/
import proofs.«155811_j69466801045558_1_alg».proof.Defs
import proofs.«155811_j69466801045558_1_alg».proof.Proof.Gen.Kernel
import proofs.«155811_j69466801045558_1_alg».proof.Proof.Gen.KernelIdeal
import proofs.«155811_j69466801045558_1_alg».proof.Proof.Gen.ReferenceIdeal
import proofs.«155811_j69466801045558_1_alg».proof.Proof.Gen.Pre_finite_inputs
import proofs.«155811_j69466801045558_1_alg».proof.Proof.Gen.ReferenceIdeal.Run
import proofs.«155811_j69466801045558_1_alg».proof.Proof.Gen.ReferenceIdeal.Read
import proofs.«155811_j69466801045558_1_alg».proof.Proof.KFrameRun
import proofs.«155811_j69466801045558_1_alg».proof.Proof.FrameRun
import proofs.«155811_j69466801045558_1_alg».proof.Proof.ValueAll
import proofs.«155811_j69466801045558_1_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and keeps its arguments: its run with the result dropped. -/
theorem frame_k : Cert.frame_Kernel := fun m ρ _ =>
  (θ_run Cert.Kernel.defs _ _).mono (fun _ h c => (h c).2) (Cert.Kernel.Frm.run_all (F := Bits) m ρ)

/-- The idealized kernel likewise. -/
theorem frame_ki : Cert.frame_KernelIdeal := fun m ρ _ =>
  (θ_run Cert.KernelIdeal.defs _ _).mono (fun _ h c => (h c).2) (Cert.KernelIdeal.Frm.run_all (F := Ideal) m ρ)

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨fun c => Cert.Tensorized.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Frm.kernel_result m c), (h c).2⟩)
      (Cert.KernelIdeal.Frm.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, Cert.ReferenceIdeal.Spec.reference_is_result,
      (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
